-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x2 : Shape := ⟨2, ![3200000, 2]⟩
abbrev S100000x16 : Shape := ⟨2, ![100000, 16]⟩
abbrev S5000x512 : Shape := ⟨2, ![5000, 512]⟩
abbrev S5000x16 : Shape := ⟨2, ![5000, 16]⟩
abbrev S3200000x16 : Shape := ⟨2, ![3200000, 16]⟩
abbrev S5000x1 : Shape := ⟨2, ![5000, 1]⟩
abbrev S1x16 : Shape := ⟨2, ![1, 16]⟩
abbrev S100000x40 : Shape := ⟨2, ![100000, 40]⟩
abbrev S5000x40 : Shape := ⟨2, ![5000, 40]⟩
abbrev S3200000x40 : Shape := ⟨2, ![3200000, 40]⟩
abbrev S1x40 : Shape := ⟨2, ![1, 40]⟩
abbrev S5000 : Shape := ⟨1, ![5000]⟩

abbrev nBuf : Space → Nat
  | .hbm => 86
  | .vmem => 28
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x1, .i32⟩
  | .hbm, ⟨33, _⟩ => ⟨S3200000x2, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000x1, .i32⟩
  | .hbm, ⟨47, _⟩ => ⟨S3200000x2, .i32⟩
  | .hbm, ⟨48, _⟩ => ⟨S3200000, .f32⟩
  | .hbm, ⟨49, _⟩ => ⟨S3200000, .f32⟩
  | .hbm, ⟨50, _⟩ => ⟨S100000x16, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x16, .f32⟩
  | .hbm, ⟨60, _⟩ => ⟨S3200000x1, .f32⟩
  | .hbm, ⟨61, _⟩ => ⟨S3200000x16, .f32⟩
  | .hbm, ⟨62, _⟩ => ⟨S3200000x16, .f32⟩
  | .hbm, ⟨63, _⟩ => ⟨S_, .f32⟩
  | .hbm, ⟨64, _⟩ => ⟨S100000x16, .f32⟩
  | .hbm, ⟨65, _⟩ => ⟨S3200000x1, .i32⟩
  | .hbm, ⟨66, _⟩ => ⟨S100000x16, .f32⟩
  | .hbm, ⟨67, _⟩ => ⟨S100000x16, .f32⟩
  | .hbm, ⟨68, _⟩ => ⟨S100000x40, .f32⟩
  | .hbm, ⟨69, _⟩ => ⟨S_, .i32⟩
  | .hbm, ⟨70, _⟩ => ⟨S3200000, .i32⟩
  | .hbm, ⟨71, _⟩ => ⟨S3200000, .i1⟩
  | .hbm, ⟨72, _⟩ => ⟨S_, .i32⟩
  | .hbm, ⟨73, _⟩ => ⟨S3200000, .i32⟩
  | .hbm, ⟨74, _⟩ => ⟨S3200000, .i32⟩
  | .hbm, ⟨75, _⟩ => ⟨S3200000, .i32⟩
  | .hbm, ⟨76, _⟩ => ⟨S3200000x1, .i32⟩
  | .hbm, ⟨77, _⟩ => ⟨S3200000x40, .f32⟩
  | .hbm, ⟨78, _⟩ => ⟨S3200000x1, .f32⟩
  | .hbm, ⟨79, _⟩ => ⟨S3200000x40, .f32⟩
  | .hbm, ⟨80, _⟩ => ⟨S3200000x40, .f32⟩
  | .hbm, ⟨81, _⟩ => ⟨S_, .f32⟩
  | .hbm, ⟨82, _⟩ => ⟨S100000x40, .f32⟩
  | .hbm, ⟨83, _⟩ => ⟨S3200000x1, .i32⟩
  | .hbm, ⟨84, _⟩ => ⟨S100000x40, .f32⟩
  | .hbm, ⟨85, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S16x40, .f32⟩
  | .local _ .vmem, ⟨17, _⟩ => ⟨S5000x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x1, .f32⟩
  | .local _ .vmem, ⟨24, _⟩ => ⟨S5000x1, .f32⟩
  | .local _ .vmem, ⟨25, _⟩ => ⟨S40, .f32⟩
  | .local _ .vmem, ⟨26, _⟩ => ⟨S5000x40, .f32⟩
  | .local _ .vmem, ⟨27, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  concatenates_S3200000x1_S3200000x1_S3200000x2_d1 : Shape.Concatenates [S3200000x1, S3200000x1] S3200000x2 1
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x16_S5000x16 : S5000x16.ShapeCasts S5000x16
  broadcasts_S5000x1_S5000x16 : S5000x1.Broadcasts S5000x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S5000x40_S5000x40 : S5000x40.ShapeCasts S5000x40
  broadcasts_S5000x1_S5000x40 : S5000x1.Broadcasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S3200000x1_S3200000_n_0_0_1_wf : ScatterDims.WF S100000 S3200000x1 S3200000 [] [0] [0] 1
  gather_S100000x1_S3200000x2_S3200000_n_01_n_n_01_1_11_wf : GatherDims.WF S100000x1 S3200000x2 S3200000 [] [0, 1] [] [0, 1] [] 1 ![1, 1]
  dot_S5000x512_S512x16_S5000x16_1_0_0_1_n_n_wf : DotDims.WF S5000x512 S512x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x40_S5000x40_1_0_0_1_n_n_wf : DotDims.WF S5000x16 S16x40 S5000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x40.size a ≤ S100000x40.size a
  hwx3_1 : ∀ i : grid3.Coords, EltTy.bits .f32 = 32 ∨ (Rect.block (s := S100000x40) S5000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S40.size a ≤ S40.size a
  hwx3_3 : ∀ i : grid3.Coords, EltTy.bits .f32 = 32 ∨ (Rect.block (s := S40) S40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x40.size a ≤ S100000x40.size a
  hwx3_4 : ∀ i : grid3.Coords, EltTy.bits .f32 = 32 ∨ (Rect.block (s := S100000x40) S5000x40.size (cc3_transform_4 i) (hinb3_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x1_S3200000x2_S3200000_n_01_n_n_01_1_11 : GatherDims S100000x1 S3200000x2 S3200000 where
  offsetDims := []
  collapsedSliceDims := [0, 1]
  operandBatchingDims := []
  startIndicesBatchingDims := []
  startIndexMap := [0, 1]
  indexVectorDim := 1
  sliceSizes := ![1, 1]
  wf := gather_S100000x1_S3200000x2_S3200000_n_01_n_n_01_1_11_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S5000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S5000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S100000x1 : Shape := ⟨2, ![100000, 1]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 136
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S_, .f32⟩
  | 12 => ⟨S3200000, .f32⟩
  | 13 => ⟨S_, .f32⟩
  | 14 => ⟨S100000, .f32⟩
  | 15 => ⟨S3200000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000x16, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S3200000, .f32⟩
  | 49 => ⟨S3200000x1, .f32⟩
  | 50 => ⟨S3200000x16, .f32⟩
  | 51 => ⟨S3200000x16, .f32⟩
  | 52 => ⟨S_, .f32⟩
  | 53 => ⟨S100000x16, .f32⟩
  | 54 => ⟨S3200000x1, .i32⟩
  | 55 => ⟨S100000x16, .f32⟩
  | 56 => ⟨S100000, .f32⟩
  | 57 => ⟨S100000x1, .f32⟩
  | 58 => ⟨S100000x16, .f32⟩
  | 59 => ⟨S100000x16, .f32⟩
  | 60 => ⟨S100000x16, .f32⟩
  | 61 => ⟨S1x16, .f32⟩
  | 62 => ⟨S100000x16, .f32⟩
  | 63 => ⟨S100000x16, .f32⟩
  | 64 => ⟨S_, .f32⟩
  | 65 => ⟨S100000x16, .f32⟩
  | 66 => ⟨S100000x16, .f32⟩
  | 67 => ⟨S100000x40, .f32⟩
  | 68 => ⟨S_, .f32⟩
  | 69 => ⟨S3200000, .f32⟩
  | 70 => ⟨S_, .f32⟩
  | 71 => ⟨S100000, .f32⟩
  | 72 => ⟨S3200000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000x40, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000, .f32⟩
  | 105 => ⟨S3200000, .f32⟩
  | 106 => ⟨S3200000x1, .f32⟩
  | 107 => ⟨S3200000x40, .f32⟩
  | 108 => ⟨S3200000x40, .f32⟩
  | 109 => ⟨S_, .f32⟩
  | 110 => ⟨S100000x40, .f32⟩
  | 111 => ⟨S3200000x1, .i32⟩
  | 112 => ⟨S100000x40, .f32⟩
  | 113 => ⟨S100000, .f32⟩
  | 114 => ⟨S100000x1, .f32⟩
  | 115 => ⟨S100000x40, .f32⟩
  | 116 => ⟨S100000x40, .f32⟩
  | 117 => ⟨S100000x40, .f32⟩
  | 118 => ⟨S1x40, .f32⟩
  | 119 => ⟨S100000x40, .f32⟩
  | 120 => ⟨S100000x40, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x40, .f32⟩
  | _ => ⟨S100000x512, .f32⟩

abbrev hbmTy0_1 (i : Nat) : BufTy := match i % 128 with
  | 0 => ⟨S100000x40, .f32⟩
  | 1 => ⟨S100000x40, .f32⟩
  | 2 => ⟨S_, .f32⟩
  | 3 => ⟨S100000, .f32⟩
  | 4 => ⟨S100000x1, .f32⟩
  | 5 => ⟨S100000x1, .f32⟩
  | 6 => ⟨S100000x40, .f32⟩
  | 7 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  dot_S100000x512_S512x16_S100000x16_1_0_0_1_n_n_wf : DotDims.WF S100000x512 S512x16 S100000x16 [1] [0] [0] [1] [] []
  scatter_S100000_S3200000x1_S3200000_n_0_0_1_wf : ScatterDims.WF S100000 S3200000x1 S3200000 [] [0] [0] 1
  gather_S100000x16_S3200000x1_S3200000x16_1_0_n_n_0_1_116_wf : GatherDims.WF S100000x16 S3200000x1 S3200000x16 [1] [0] [] [0] [] 1 ![1, 16]
  gather_S100000_S3200000x1_S3200000_n_0_n_n_0_1_1_wf : GatherDims.WF S100000 S3200000x1 S3200000 [] [0] [] [0] [] 1 ![1]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.Spec.lean ====
/-
  What the four kernel regions compute, as whole-array functions over the extended reals.

  The network is two graph-convolution layers.  Each layer first multiplies every node's feature row by a weight
  matrix (`dense512`, `dense16`: entry (n, j) is the sum over k of x[n, k] * w[k, j]).  The messages along the edges
  are gathered and summed outside these regions; a region then adds, per node, the node's own transformed row
  weighted by the square of its inverse-root degree, and the bias (`conv16`, `conv40`).  The first layer ends with
  max(., 0) (`hidden`); the second with the row-wise log-softmax (`logProbs`): subtract the row's maximum, then
  subtract the logarithm of the row's sum of exponentials.
-/
import proofs.«101106_j70970039599642_1_alg».proof.KernelIdeal
import Idealize.ShloMosaic.PureOps.Ideal
import Idealize.ShloMosaic.Lib.ValueIdx

noncomputable section

namespace Cert.KernelIdeal.Val

open Idealize.ShloMosaic Idealize.ShloMosaic.ValueIdx Cert.KernelIdeal

/-- Every node's 512 features times the 512 x 16 weights: entry (n, j) is the sum over k of x[n, k] * w[k, j]. -/
def dense512 (x : FVec Ideal S100000x512 .f32) (w : FVec Ideal S512x16 .f32) : FVec Ideal S100000x16 .f32 :=
  fun i => ∑ k : Fin 512, x (ix2 (i 0) k) * w (ix2 k (i 1))

/-- Every node's 16 hidden features times the 16 x 40 weights. -/
def dense16 (x : FVec Ideal S100000x16 .f32) (w : FVec Ideal S16x40 .f32) : FVec Ideal S100000x40 .f32 :=
  fun i => ∑ k : Fin 16, x (ix2 (i 0) k) * w (ix2 k (i 1))

/-- The summed messages plus the node's own row weighted by the square of its inverse-root degree (kept as a
    column `d`), plus the bias. -/
def conv16 (agg h : FVec Ideal S100000x16 .f32) (d : FVec Ideal S100000x1 .f32) (b : FVec Ideal S16 .f32) :
    FVec Ideal S100000x16 .f32 :=
  fun i => agg i + h i * (d (ix2 (i 0) 0) * d (ix2 (i 0) 0)) + b (ix1 (i 1))

/-- The first layer's output: the positive part of `conv16`. -/
def hidden (agg h : FVec Ideal S100000x16 .f32) (d : FVec Ideal S100000x1 .f32) (b : FVec Ideal S16 .f32) :
    FVec Ideal S100000x16 .f32 :=
  fun i => max (conv16 agg h d b i) (Ideal.ofBits .f32 0x00000000#32)

/-- The same combination on the 40 output classes. -/
def conv40 (agg h : FVec Ideal S100000x40 .f32) (d : FVec Ideal S100000x1 .f32) (b : FVec Ideal S40 .f32) :
    FVec Ideal S100000x40 .f32 :=
  fun i => agg i + h i * (d (ix2 (i 0) 0) * d (ix2 (i 0) 0)) + b (ix1 (i 1))

/-- The largest of a node's 40 scores (the fold of max from minus infinity). -/
def rowTop (v : FVec Ideal S100000x40 .f32) (r : Fin 100000) : EReal :=
  (Finset.univ : Finset (Fin 40)).fold max (Ideal.ofBits .f32 0xFF800000#32) (fun q => v (ix2 r q))

/-- Row-wise log-softmax: the score less the row's maximum, less the logarithm of the row's sum of exponentials of
    those differences. -/
def logProbs (v : FVec Ideal S100000x40 .f32) : FVec Ideal S100000x40 .f32 :=
  fun i => (v i - rowTop v (i 0)) - Ideal.log (∑ q : Fin 40, Ideal.exp (v (ix2 (i 0) q) - rowTop v (i 0)))

/-- The second layer's output. -/
def classScores (agg h : FVec Ideal S100000x40 .f32) (d : FVec Ideal S100000x1 .f32) (b : FVec Ideal S40 .f32) :
    FVec Ideal S100000x40 .f32 :=
  logProbs (conv40 agg h d b)

end Cert.KernelIdeal.Val

end
-- ==== Proof.HostSide.lean ====
/-
  The kernel program's host-side stretches, named.

  From the edge list (row 0 the sources, row 1 the destinations): the in-degree of every node counted by a scatter of
  ones, plus one for the self loop; its inverse square root, kept as a column; the weight of an edge, the product of
  that value at its two ends (a negative node number first wraps around by the number of nodes, and the lookup
  clamps into range); and the message passing itself: each edge carries its source's row times the edge's weight,
  and the rows are summed at the destinations.  `kernelValue` composes these with the four regions' functions.
-/
import proofs.«101106_j70970039599642_1_alg».proof.Proof.Gen.KernelIdeal
import proofs.«101106_j70970039599642_1_alg».proof.Proof.Spec

noncomputable section

namespace Cert.KernelIdeal.Val

open Idealize.ShloMosaic Cert.KernelIdeal Cert.KernelIdeal.Facts₀

/-- The edges' source nodes. -/
def srcRow (e : IVec S2x3200000 32) : IVec S3200000 32 :=
  shapeCast _ (extractStridedSlice S1x3200000 ![0, 0] e slices_S2x3200000_S1x3200000_0_0) shapeCasts_S1x3200000_S3200000

/-- The edges' destination nodes. -/
def dstRow (e : IVec S2x3200000 32) : IVec S3200000 32 :=
  shapeCast _ (extractStridedSlice S1x3200000 ![1, 0] e slices_S2x3200000_S1x3200000_1_0) shapeCasts_S1x3200000_S3200000

/-- A negative node number counts from the end: it is shifted up by the number of nodes. -/
def wrapNode (s : IVec S3200000 32) : IVec S3200000 32 :=
  select (cmpi .slt s (broadcastInDim S3200000 ![] bcast_S_S3200000 (constantI S_ 32 0#32)))
    (addi s (broadcastInDim S3200000 ![] bcast_S_S3200000 (constantI S_ 32 100000#32))) s

/-- One over the square root of (in-degree + 1), per node, from the edges' destinations. -/
def invRootDegreeOf (dst : IVec S3200000 32) : FVec Ideal S100000 .f32 :=
  Host.rsqrt (addf
    (Host.scatterAdd scatter_S100000_S3200000x1_S3200000_n_0_0_1
      (broadcastInDim S100000 ![] bcast_S_S100000 (constant S_ .f32 0x00000000#32))
      (broadcastInDim S3200000x1 ![0] bcast_S3200000_S3200000x1_0 dst)
      (broadcastInDim S3200000 ![] bcast_S_S3200000 (constant S_ .f32 0x3F800000#32)))
    (broadcastInDim S100000 ![] bcast_S_S100000 (constant S_ .f32 0x3F800000#32)))

/-- The same from the edge list. -/
def invRootDegree (e : IVec S2x3200000 32) : FVec Ideal S100000 .f32 :=
  invRootDegreeOf (dstRow e)

/-- The same as a column. -/
def invRootDegreeCol (e : IVec S2x3200000 32) : FVec Ideal S100000x1 .f32 :=
  shapeCast _ (invRootDegree e) shapeCasts_S100000_S100000x1

/-- The column looked up at the nodes `s` (element (node, 0)). -/
def atNodes (d : FVec Ideal S100000x1 .f32) (s : IVec S3200000 32) : FVec Ideal S3200000 .f32 :=
  Host.gather gather_S100000x1_S3200000x2_S3200000_n_01_n_n_01_1_11 d
    (concatenate S3200000x2 1
      [⟨S3200000x1, broadcastInDim S3200000x1 ![0] bcast_S3200000_S3200000x1_0 (wrapNode s)⟩,
       ⟨S3200000x1, broadcastInDim S3200000x1 ![0] bcast_S3200000_S3200000x1_0
          (id (broadcastInDim S3200000 ![] bcast_S_S3200000 (constantI S_ 32 0#32)))⟩]
      concatenates_S3200000x1_S3200000x1_S3200000x2_d1)

/-- An edge's weight: the per-node column at its source times that at its destination. -/
def edgeWeightOf (d : FVec Ideal S100000x1 .f32) (src dst : IVec S3200000 32) : FVec Ideal S3200000 .f32 :=
  mulf (atNodes d src) (atNodes d dst)

/-- The edges' weights from the edge list. -/
def edgeWeight (e : IVec S2x3200000 32) : FVec Ideal S3200000 .f32 :=
  edgeWeightOf (invRootDegreeCol e) (srcRow e) (dstRow e)

/-- Gather the rows of `h` at the (wrapped) source nodes, scale each by its edge's weight, and sum them at the
    destination nodes: 16 features. -/
def gatherScatter16 (h : FVec Ideal S100000x16 .f32) (src dst : IVec S3200000 32) (wgt : FVec Ideal S3200000 .f32) :
    FVec Ideal S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (mulf
      (Host.gather gather_S100000x16_S3200000x1_S3200000x16_1_0_n_n_0_1_116 h
        (broadcastInDim S3200000x1 ![0] bcast_S3200000_S3200000x1_0 (wrapNode src)))
      (broadcastInDim S3200000x16 ![0, 1] bcast_S3200000x1_S3200000x16_0_1
        (broadcastInDim S3200000x1 ![0] bcast_S3200000_S3200000x1_0 wgt)))

/-- The same on 40 features. -/
def gatherScatter40 (h : FVec Ideal S100000x40 .f32) (src dst : IVec S3200000 32) (wgt : FVec Ideal S3200000 .f32) :
    FVec Ideal S100000x40 .f32 :=
  Host.scatterAdd scatter_S100000x40_S3200000x1_S3200000x40_1_0_0_1
    (broadcastInDim S100000x40 ![] bcast_S_S100000x40 (constant S_ .f32 0x00000000#32))
    (broadcastInDim S3200000x1 ![0] bcast_S3200000_S3200000x1_0 dst)
    (mulf
      (Host.gather gather_S100000x40_S3200000x1_S3200000x40_1_0_n_n_0_1_140 h
        (broadcastInDim S3200000x1 ![0] bcast_S3200000_S3200000x1_0 (wrapNode src)))
      (broadcastInDim S3200000x40 ![0, 1] bcast_S3200000x1_S3200000x40_0_1
        (broadcastInDim S3200000x1 ![0] bcast_S3200000_S3200000x1_0 wgt)))

/-- Message passing on 16 features: every edge takes its source's row times the edge's weight, summed at the
    destination. -/
def passMessages16 (h : FVec Ideal S100000x16 .f32) (e : IVec S2x3200000 32) (wgt : FVec Ideal S3200000 .f32) :
    FVec Ideal S100000x16 .f32 :=
  gatherScatter16 h (srcRow e) (dstRow e) wgt

/-- Message passing on 40 features. -/
def passMessages40 (h : FVec Ideal S100000x40 .f32) (e : IVec S2x3200000 32) (wgt : FVec Ideal S3200000 .f32) :
    FVec Ideal S100000x40 .f32 :=
  gatherScatter40 h (srcRow e) (dstRow e) wgt

/-- The first layer: transform, pass messages, close. -/
def layerOne (x : FVec Ideal S100000x512 .f32) (e : IVec S2x3200000 32) (w1 : FVec Ideal S512x16 .f32)
    (b1 : FVec Ideal S16 .f32) : FVec Ideal S100000x16 .f32 :=
  hidden (passMessages16 (dense512 x w1) e (edgeWeight e)) (dense512 x w1) (invRootDegreeCol e) b1

/-- The whole kernel program's result as a function of its six arguments. -/
def kernelValue (x : FVec Ideal S100000x512 .f32) (e : IVec S2x3200000 32) (w1 : FVec Ideal S512x16 .f32)
    (b1 : FVec Ideal S16 .f32) (w2 : FVec Ideal S16x40 .f32) (b2 : FVec Ideal S40 .f32) : FVec Ideal S100000x40 .f32 :=
  classScores (passMessages40 (dense16 (layerOne x e w1 b1) w2) e (edgeWeight e)) (dense16 (layerOne x e w1 b1) w2)
    (invRootDegreeCol e) b2

end Cert.KernelIdeal.Val

end
-- ==== Proof.Region0.lean ====
import proofs.«101106_j70970039599642_1_alg».proof.Proof.Gen.KernelIdeal.Frame
import proofs.«101106_j70970039599642_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! # Region 0: every node's features times the first weight matrix

Each of the 20 grid points takes 5000 consecutive rows of the features and the whole weight matrix, and writes the
same 5000 rows of the product.  The narrowing of both operands before the product is the identity over the extended
reals, and the product accumulates from zero, so entry (p, j) of a point's block is the plain sum over the 512
features.  The blocks tile the rows, so the array the region leaves is `dense512` of the two arrays it found. -/

/-- A block whose origin is the zero offset on both axes. -/
theorem origin2 : (![0, 0] : Fin 2 → Nat) = fun _ => 0 := funext fun a => by fin_cases a <;> rfl

/-! ## The contraction's operand indices, axis by axis -/

theorem prod512_lhs_0 (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem prod512_lhs_1 (i : S5000x16.Idx) (q : dot_S5000x512_S512x16_S5000x16_1_0_0_1_n_n.contr.Idx) :
    (dot_S5000x512_S512x16_S5000x16_1_0_0_1_n_n.lhsIdx i q 1).val = (q ⟨0, by decide⟩).val :=
  dot_S5000x512_S512x16_S5000x16_1_0_0_1_n_n.lhsIdx_val_of_single rfl i q
theorem prod512_rhs_0 (i : S5000x16.Idx) (q : dot_S5000x512_S512x16_S5000x16_1_0_0_1_n_n.contr.Idx) :
    (dot_S5000x512_S512x16_S5000x16_1_0_0_1_n_n.rhsIdx i q 0).val = (q ⟨0, by decide⟩).val :=
  dot_S5000x512_S512x16_S5000x16_1_0_0_1_n_n.rhsIdx_val_of_single rfl i q
theorem prod512_rhs_1 (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- Entry (p, j) of the block a point computes: the sum over the 512 features of the row's entry times the
    weight's. -/
theorem blockProduct512 (x0 : Vec Ideal S5000x512 .f32) (x1 : Vec Ideal S512x16 .f32) (i : S5000x16.Idx) :
    k0_pay1 (F := Ideal) x0 x1 i = ∑ k : Fin 512, x0 (ix2 (i 0) k) * x1 (ix2 k (i 1)) := by
  unfold k0_pay1
  simp only [matmul]
  rw [Ideal.matmul_constant_zero_apply, ← Equiv.sum_comp (ValueIdx.contrEquiv1 dot_S5000x512_S512x16_S5000x16_1_0_0_1_n_n 512 rfl rfl).symm]
  refine Finset.sum_congr rfl fun k _ => ?_
  have hk := ValueIdx.contrEquiv1_symm_val dot_S5000x512_S512x16_S5000x16_1_0_0_1_n_n 512 rfl rfl k
  have el : dot_S5000x512_S512x16_S5000x16_1_0_0_1_n_n.lhsIdx i ((ValueIdx.contrEquiv1 dot_S5000x512_S512x16_S5000x16_1_0_0_1_n_n 512 rfl rfl).symm k) = ix2 (i 0) k := funext fun a => Fin.ext (by
    match a with
    | ⟨0, _⟩ => exact prod512_lhs_0 _ _
    | ⟨1, _⟩ => exact (prod512_lhs_1 _ _).trans hk)
  have er : dot_S5000x512_S512x16_S5000x16_1_0_0_1_n_n.rhsIdx i ((ValueIdx.contrEquiv1 dot_S5000x512_S512x16_S5000x16_1_0_0_1_n_n 512 rfl rfl).symm k) = ix2 k (i 1) := funext fun a => Fin.ext (by
    match a with
    | ⟨0, _⟩ => exact (prod512_rhs_0 _ _).trans hk
    | ⟨1, _⟩ => exact prod512_rhs_1 _ _)
  rw [el, er]
  rfl

/-! ## The blocks -/

/-- The printed index maps over the grid: the feature rows move with the output rows, the weights stay put, and the
    output's row-block index is the point's, below 20. -/
theorem rowBlocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row blocks is some point's. -/
theorem everyRowBlock0 : ∀ q : Fin 20, ∃ t : Fin cfg0.N, win0_2.index t = ![q.val, 0] :=
  (by decide +kernel : ∀ q : Fin 20, ∃ t : Fin grid0.N, win0_2.index t = ![q.val, 0])

/-- What point `t` writes back is its block of `dense512` of the two arrays as the region found them. -/
theorem writesBack0 (c : Dev nD) (t : Fin cfg0.N) :
    (dat0 (F := Ideal) V c).flushed 2 t
      = ((cfg0.win 2).blk t).view.read (Elt Ideal) (dense512 (V c main_arg0) (V c main_arg2)) := by
  show (cfg0.win 2).cut (grid0.coords t) ((dat0 (F := Ideal) V c).after 2 t) = _
  rw [after0_2]
  unfold out0_2
  rw [View.canon_unit_zero origin2]
  simp only [View.ld_unit_zero (S := S5000x512) origin2, View.ld_unit_zero (S := S512x16) origin2]
  obtain ⟨e0, e1, e2, e3, e4, e5⟩ := rowBlocks0 t
  funext j
  refine (blockProduct512 (iblk0 V c 0 t) (iblk0 V c 1 t) j).trans ?_
  show _ = dense512 (V c main_arg0) (V c main_arg2) (((cfg0.win 2).blk t).view.emb j)
  unfold dense512
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  refine congr (congrArg _ ?_) ?_
  · exact congrArg (V c main_arg0) h0
  · exact congrArg (V c main_arg2) h1

/-- An index of the output array lies in point `t`'s block iff each coordinate is in the block's range. -/
theorem inBlock0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v35).slice (win0_2.rect t)).set ↔ _
  rw [View.set_slice_whole, Rect.mem_set_unit]
  exact Iff.rfl

/-- Every index of the output array is in the block of the point whose row block is row / 5000. -/
theorem covered0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := everyRowBlock0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [inBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- After region 0 its output array holds `dense512` of the features and the weights as the region found them. -/
theorem region0_array (c : Dev nD) :
    (dat0 (F := Ideal) V c).arrAt 2 cfg0.N = dense512 (V c main_arg0) (V c main_arg2) :=
  (dat0 (F := Ideal) V c).arrAt_eq_of_cover 2 _ (fun t _ => writesBack0 V c t) (covered0)

end Cert.KernelIdeal.Val

end
-- ==== Proof.Region1.lean ====
import proofs.«101106_j70970039599642_1_alg».proof.Proof.Gen.KernelIdeal.Frame
import proofs.«101106_j70970039599642_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! # Region 1: the first layer's closing step

Each of the 20 grid points handles 5000 consecutive nodes: it reads those rows of the summed messages, of the
transformed features and of the inverse-root-degree column, and the whole bias, and writes the same rows of the result.
So the array the region leaves is `hidden` of the arrays it found, row block by row block. -/

/-! ## The body's arithmetic at one entry of a block -/

/-- The origin of a rank-2 block. -/
theorem blockOrigin2_1 : (![0, 0] : Fin 2 → Nat) = fun _ => 0 :=
  funext fun a => by match a with | ⟨0, _⟩ => rfl | ⟨1, _⟩ => rfl

/-- The origin of a rank-1 block. -/
theorem blockOrigin1_1 : (![0] : Fin 1 → Nat) = fun _ => 0 :=
  funext fun a => by match a with | ⟨0, _⟩ => rfl

/-- A column of 5000 entries spread over 16 lanes reads, in row p, the column's entry p. -/
theorem column_spread1 (x : FVec Ideal S5000x1 .f32) (h : S5000x1.Broadcasts S5000x16) (p : Fin 5000) (q : Fin 16) :
    broadcastTo S5000x16 x h (ix2 p q) = x (ix2 p 0) :=
  broadcastTo_apply x h (ix2 p q) (ix2 p 0) (fun a => by match a with | ⟨0, _⟩ => rfl | ⟨1, _⟩ => rfl)

/-- One row of 16 entries spread over 5000 rows reads, in lane q, the row's entry q. -/
theorem row_spread1 (x : FVec Ideal S1x16 .f32) (h : S1x16.Broadcasts S5000x16) (p : Fin 5000) (q : Fin 16) :
    broadcastTo S5000x16 x h (ix2 p q) = x (ix2 0 q) :=
  broadcastTo_apply x h (ix2 p q) (ix2 0 q) (fun a => by match a with | ⟨0, _⟩ => rfl | ⟨1, _⟩ => rfl)

/-- The bias vector seen as a one-row matrix reads its entry q at (0, q). -/
theorem bias_as_row1 (b : FVec Ideal S16 .f32) (h : S16.ShapeCasts S1x16) (q : Fin 16) :
    shapeCast S1x16 b h (ix2 0 q) = b (ix1 q) :=
  shapeCast_apply b h (ix2 0 q) (ix1 q) (by
    rw [Shape.rowMajor_val_one, Shape.rowMajor_val_two]
    show q.val = 0 * 16 + q.val
    omega)

/-- The body's result at entry (p, q) of a block: the summed messages, plus the transformed feature times the square
    of the row's inverse-root degree, plus the lane's bias; then the positive part. -/
theorem body_at1 (d : Vec Ideal S5000x1 .f32) (agg h : Vec Ideal S5000x16 .f32) (b : Vec Ideal S16 .f32)
    (p : Fin 5000) (q : Fin 16) :
    k1_pay1 (F := Ideal) d agg h b (ix2 p q)
      = max (agg (ix2 p q) + h (ix2 p q) * (d (ix2 p 0) * d (ix2 p 0)) + b (ix1 q)) (Ideal.ofBits .f32 0x00000000#32) := by
  unfold k1_pay1
  simp only [shapeCast_self]
  rw [maximumf_apply, broadcast_apply, addf_apply, addf_apply, mulf_apply, column_spread1, row_spread1, bias_as_row1,
    mulf_apply]
  rfl

/-- The same at an index of the block not yet split into coordinates. -/
theorem body_at_idx1 (d : Vec Ideal S5000x1 .f32) (agg h : Vec Ideal S5000x16 .f32) (b : Vec Ideal S16 .f32)
    (j : S5000x16.Idx) :
    k1_pay1 (F := Ideal) d agg h b j
      = max (agg j + h j * (d (ix2 (j 0) 0) * d (ix2 (j 0) 0)) + b (ix1 (j 1))) (Ideal.ofBits .f32 0x00000000#32) := by
  obtain ⟨p, q, rfl⟩ : ∃ (p : Fin 5000) (q : Fin 16), j = ix2 p q := ⟨j 0, j 1, eq_ix2 j⟩
  exact body_at1 d agg h b p q

/-- When a point's blocks are the matching rows of four whole arrays — entry j of the two 16-lane blocks is entry i of
    their arrays, the row's column entry is row (i 0)'s, the lane's bias is lane (i 1)'s — the body's result at j is
    `hidden` of the arrays at i. -/
theorem body_is_hidden1 (A H : FVec Ideal S100000x16 .f32) (D : FVec Ideal S100000x1 .f32) (B : FVec Ideal S16 .f32)
    (agg h : Vec Ideal S5000x16 .f32) (d : Vec Ideal S5000x1 .f32) (b : Vec Ideal S16 .f32)
    (j : S5000x16.Idx) (i : S100000x16.Idx)
    (hagg : agg j = A i) (hh : h j = H i) (hd : d (ix2 (j 0) 0) = D (ix2 (i 0) 0)) (hb : b (ix1 (j 1)) = B (ix1 (i 1))) :
    k1_pay1 (F := Ideal) d agg h b j = hidden A H D B i := by
  rw [body_at_idx1, hagg, hh, hd, hb]
  rfl

/-! ## The index maps over the grid -/

/-- At every grid point the three row-blocked inputs sit at the output's row block, in column block 0; the bias at its
    only block; and the output's row block is one of the 20, in column block 0. -/
theorem blocks_aligned1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 1) = 0
    ∧ win1_4.index t (0 : Fin 2) ≤ 19 ∧ win1_4.index t (1 : Fin 2) = 0 :=
  (by decide +kernel : ∀ t : Fin grid1.N, _)

/-- Every one of the 20 row blocks is some grid point's. -/
theorem every_row_block1 : ∀ q : Fin 20, ∃ t : Fin cfg1.N, win1_4.index t = ![q.val, 0] :=
  (by decide +kernel : ∀ q : Fin 20, ∃ t : Fin grid1.N, win1_4.index t = ![q.val, 0])

/-! ## What one grid point writes back -/

/-- Grid point t writes back rows 5000 t … 5000 t + 4999 of `hidden` of the four arrays: each input block is the same
    rows of its array (the bias whole), so the body's result at an entry of the block is `hidden` at that entry's
    place in the array. -/
theorem block_written1 (c : Dev nD) (t : Fin cfg1.N) :
    (dat1 (F := Ideal) V c).flushed 4 t
      = ((cfg1.win 4).blk t).view.read (Elt Ideal)
          (hidden (V c main_v48) (V c main_v35) (V c main_v11) (V c main_arg3)) := by
  show (cfg1.win 4).cut (grid1.coords t) ((dat1 (F := Ideal) V c).after 4 t) = _
  rw [after1_4]
  unfold out1_4
  rw [View.canon_unit_zero blockOrigin2_1]
  simp only [View.ld_unit_zero (S := S5000x16) blockOrigin2_1, View.ld_unit_zero (S := S5000x1) blockOrigin2_1,
    View.ld_unit_zero (S := S16) blockOrigin1_1]
  obtain ⟨e0, e1, e2, e3, e4, e5, e6, e7, e8⟩ := blocks_aligned1 t
  funext j
  refine body_is_hidden1 (V c main_v48) (V c main_v35) (V c main_v11) (V c main_arg3)
    (iblk1 V c 0 t) (iblk1 V c 1 t) (iblk1 V c 2 t) (iblk1 V c 3 t) j (((cfg1.win 4).blk t).view.emb j) ?_ ?_ ?_ ?_
  · show V c main_v48 (((cfg1.win 0).blk t).view.emb j) = V c main_v48 (((cfg1.win 4).blk t).view.emb j)
    refine congrArg (V c main_v48) (funext fun a => Fin.ext ?_)
    match a with
    | ⟨0, _⟩ =>
      show win1_0.index t (0 : Fin 2) * 5000 + 1 * (j 0).val = win1_4.index t (0 : Fin 2) * 5000 + 1 * (j 0).val
      omega
    | ⟨1, _⟩ =>
      show win1_0.index t (1 : Fin 2) * 16 + 1 * (j 1).val = win1_4.index t (1 : Fin 2) * 16 + 1 * (j 1).val
      omega
  · show V c main_v35 (((cfg1.win 1).blk t).view.emb j) = V c main_v35 (((cfg1.win 4).blk t).view.emb j)
    refine congrArg (V c main_v35) (funext fun a => Fin.ext ?_)
    match a with
    | ⟨0, _⟩ =>
      show win1_1.index t (0 : Fin 2) * 5000 + 1 * (j 0).val = win1_4.index t (0 : Fin 2) * 5000 + 1 * (j 0).val
      omega
    | ⟨1, _⟩ =>
      show win1_1.index t (1 : Fin 2) * 16 + 1 * (j 1).val = win1_4.index t (1 : Fin 2) * 16 + 1 * (j 1).val
      omega
  · show V c main_v11 (((cfg1.win 2).blk t).view.emb (ix2 (j 0) 0))
      = V c main_v11 (ix2 ((((cfg1.win 4).blk t).view.emb j) 0) 0)
    refine congrArg (V c main_v11) (funext fun a => Fin.ext ?_)
    match a with
    | ⟨0, _⟩ =>
      show win1_2.index t (0 : Fin 2) * 5000 + 1 * (j 0).val = win1_4.index t (0 : Fin 2) * 5000 + 1 * (j 0).val
      omega
    | ⟨1, _⟩ =>
      show win1_2.index t (1 : Fin 2) * 1 + 1 * 0 = 0
      omega
  · show V c main_arg3 (((cfg1.win 3).blk t).view.emb (ix1 (j 1)))
      = V c main_arg3 (ix1 ((((cfg1.win 4).blk t).view.emb j) 1))
    refine congrArg (V c main_arg3) (funext fun a => Fin.ext ?_)
    match a with
    | ⟨0, _⟩ =>
      show win1_3.index t (0 : Fin 1) * 16 + 1 * (j 1).val = win1_4.index t (1 : Fin 2) * 16 + 1 * (j 1).val
      omega

/-! ## The blocks fill the array -/

/-- An entry of the array is in grid point t's block iff each coordinate is in the block's range on its axis. -/
theorem mem_row_block1 (t : Fin cfg1.N) (i : S100000x16.Idx) :
    i ∈ ((cfg1.win 4).blk t).view.set
      ↔ ∀ a : Fin 2, win1_4.index t a * S5000x16.size a ≤ (i a).val
          ∧ (i a).val < win1_4.index t a * S5000x16.size a + S5000x16.size a := by
  show i ∈ ((View.whole main_v49).slice (win1_4.rect t)).set ↔ _
  rw [View.set_slice_whole, Rect.mem_set_unit]
  exact Iff.rfl

/-- Row r of the array lies in the block of the grid point whose row block is r / 5000, and that point writes its
    block back. -/
theorem rows_covered1 (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  obtain ⟨t, ht⟩ := every_row_block1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_row_block1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 16 ≤ (i 1).val ∧ (i 1).val < win1_4.index t (1 : Fin 2) * 16 + 16
    omega

/-- After region 1 its output array holds `hidden` of the four arrays the region read, as it found them. -/
theorem region1_array (c : Dev nD) :
    (dat1 (F := Ideal) V c).arrAt 4 cfg1.N = hidden (V c main_v48) (V c main_v35) (V c main_v11) (V c main_arg3) := by
  exact (dat1 (F := Ideal) V c).arrAt_eq_of_cover 4
    (hidden (V c main_v48) (V c main_v35) (V c main_v11) (V c main_arg3))
    (fun t _ => block_written1 V c t) rows_covered1

end Cert.KernelIdeal.Val

end
-- ==== Proof.Region2.lean ====
import proofs.«101106_j70970039599642_1_alg».proof.Proof.Gen.KernelIdeal.Frame
import proofs.«101106_j70970039599642_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! # Region 2: every node's hidden features times the second weight matrix

Each of the 20 grid points takes 5000 consecutive rows of the hidden features and the whole 16 x 40 weight matrix,
and writes the same 5000 rows of the product.  Over the extended reals the narrowing of the operands is the identity
and the product accumulates from zero, so entry (p, j) of a point's block is the sum over the 16 hidden features.  The
blocks tile the rows, so the array the region leaves is `dense16` of the two arrays it found. -/

/-- A block whose origin is the zero offset on both axes. -/
theorem origin2' : (![0, 0] : Fin 2 → Nat) = fun _ => 0 := funext fun a => by fin_cases a <;> rfl

/-! ## The contraction's operand indices, axis by axis -/

theorem prod16_lhs_0 (i : S5000x40.Idx) (q : dot_S5000x16_S16x40_S5000x40_1_0_0_1_n_n.contr.Idx) :
    (dot_S5000x16_S16x40_S5000x40_1_0_0_1_n_n.lhsIdx i q 0).val = (i 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
theorem prod16_lhs_1 (i : S5000x40.Idx) (q : dot_S5000x16_S16x40_S5000x40_1_0_0_1_n_n.contr.Idx) :
    (dot_S5000x16_S16x40_S5000x40_1_0_0_1_n_n.lhsIdx i q 1).val = (q ⟨0, by decide⟩).val :=
  dot_S5000x16_S16x40_S5000x40_1_0_0_1_n_n.lhsIdx_val_of_single rfl i q
theorem prod16_rhs_0 (i : S5000x40.Idx) (q : dot_S5000x16_S16x40_S5000x40_1_0_0_1_n_n.contr.Idx) :
    (dot_S5000x16_S16x40_S5000x40_1_0_0_1_n_n.rhsIdx i q 0).val = (q ⟨0, by decide⟩).val :=
  dot_S5000x16_S16x40_S5000x40_1_0_0_1_n_n.rhsIdx_val_of_single rfl i q
theorem prod16_rhs_1 (i : S5000x40.Idx) (q : dot_S5000x16_S16x40_S5000x40_1_0_0_1_n_n.contr.Idx) :
    (dot_S5000x16_S16x40_S5000x40_1_0_0_1_n_n.rhsIdx i q 1).val = (i 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- Entry (p, j) of the block a point computes: the sum over the 16 hidden features of the row's entry times the
    weight's (the block's cast to its own shape changes nothing). -/
theorem blockProduct16 (x0 : Vec Ideal S5000x16 .f32) (x1 : Vec Ideal S16x40 .f32) (i : S5000x40.Idx) :
    k2_pay1 (F := Ideal) x0 x1 i = ∑ k : Fin 16, x0 (ix2 (i 0) k) * x1 (ix2 k (i 1)) := by
  unfold k2_pay1
  simp only [matmul]
  rw [Ideal.matmul_constant_zero_apply, ← Equiv.sum_comp (ValueIdx.contrEquiv1 dot_S5000x16_S16x40_S5000x40_1_0_0_1_n_n 16 rfl rfl).symm]
  refine Finset.sum_congr rfl fun k _ => ?_
  have hk := ValueIdx.contrEquiv1_symm_val dot_S5000x16_S16x40_S5000x40_1_0_0_1_n_n 16 rfl rfl k
  have el : dot_S5000x16_S16x40_S5000x40_1_0_0_1_n_n.lhsIdx i ((ValueIdx.contrEquiv1 dot_S5000x16_S16x40_S5000x40_1_0_0_1_n_n 16 rfl rfl).symm k) = ix2 (i 0) k := funext fun a => Fin.ext (by
    match a with
    | ⟨0, _⟩ => exact prod16_lhs_0 _ _
    | ⟨1, _⟩ => exact (prod16_lhs_1 _ _).trans hk)
  have er : dot_S5000x16_S16x40_S5000x40_1_0_0_1_n_n.rhsIdx i ((ValueIdx.contrEquiv1 dot_S5000x16_S16x40_S5000x40_1_0_0_1_n_n 16 rfl rfl).symm k) = ix2 k (i 1) := funext fun a => Fin.ext (by
    match a with
    | ⟨0, _⟩ => exact (prod16_rhs_0 _ _).trans hk
    | ⟨1, _⟩ => exact prod16_rhs_1 _ _)
  rw [el, er, shapeCast_self]
  rfl

/-! ## The blocks -/

/-- The printed index maps over the grid: the hidden rows move with the output rows, the weights stay put, and the
    output's row-block index is the point's, below 20. -/
theorem rowBlocks2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every one of the 20 row blocks is some point's. -/
theorem everyRowBlock2 : ∀ q : Fin 20, ∃ t : Fin cfg2.N, win2_2.index t = ![q.val, 0] :=
  (by decide +kernel : ∀ q : Fin 20, ∃ t : Fin grid2.N, win2_2.index t = ![q.val, 0])

/-- What point `t` writes back is its block of `dense16` of the two arrays as the region found them. -/
theorem writesBack2 (c : Dev nD) (t : Fin cfg2.N) :
    (dat2 (F := Ideal) V c).flushed 2 t
      = ((cfg2.win 2).blk t).view.read (Elt Ideal) (dense16 (V c main_v49) (V c main_arg4)) := by
  show (cfg2.win 2).cut (grid2.coords t) ((dat2 (F := Ideal) V c).after 2 t) = _
  rw [after2_2]
  unfold out2_2
  rw [View.canon_unit_zero origin2']
  simp only [View.ld_unit_zero (S := S5000x16) origin2', View.ld_unit_zero (S := S16x40) origin2']
  obtain ⟨e0, e1, e2, e3, e4, e5⟩ := rowBlocks2 t
  funext j
  refine (blockProduct16 (iblk2 V c 0 t) (iblk2 V c 1 t) j).trans ?_
  show _ = dense16 (V c main_v49) (V c main_arg4) (((cfg2.win 2).blk t).view.emb j)
  unfold dense16
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 16 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 16 + 1 * k.val = k.val; omega
    | ⟨1, _⟩ => show win2_1.index t (1 : Fin 2) * 40 + 1 * (j 1).val = win2_2.index t (1 : Fin 2) * 40 + 1 * (j 1).val; omega
  refine congr (congrArg _ ?_) ?_
  · exact congrArg (V c main_v49) h0
  · exact congrArg (V c main_arg4) h1

/-- An index of the output array lies in point `t`'s block iff each coordinate is in the block's range. -/
theorem inBlock2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v50).slice (win2_2.rect t)).set ↔ _
  rw [View.set_slice_whole, Rect.mem_set_unit]
  exact Iff.rfl

/-- Every index of the output array is in the block of the point whose row block is row / 5000. -/
theorem covered2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := everyRowBlock2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [inBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- After region 2 its output array holds `dense16` of the hidden features and the weights as the region found
    them. -/
theorem region2_array (c : Dev nD) :
    (dat2 (F := Ideal) V c).arrAt 2 cfg2.N = dense16 (V c main_v49) (V c main_arg4) :=
  (dat2 (F := Ideal) V c).arrAt_eq_of_cover 2 _ (fun t _ => writesBack2 V c t) (covered2)

end Cert.KernelIdeal.Val

end
-- ==== Proof.Region3.lean ====
import proofs.«101106_j70970039599642_1_alg».proof.Proof.Gen.KernelIdeal.Frame
import proofs.«101106_j70970039599642_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Layout operations of a column, read at an index -/

/-- A column `[a, 1]` broadcast to `[a, b]` reads, at `(p, c)`, the column's entry of row `p`. -/
theorem broadcastTo_a1_ab_apply3 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply3 {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-! ## One block of 5000 rows: the scores, a row's maximum, and the payload at an index -/

/-- The second layer's combination on one block: the summed messages plus the node's own row weighted by the square of
    its inverse-root degree, plus the bias, at row `p` and class `q` of the block. -/
def blockScore3 (x0 x1 : Vec Ideal S5000x40 .f32) (x2 : Vec Ideal S5000x1 .f32) (x3 : Vec Ideal S40 .f32)
    (p : Fin 5000) (q : Fin 40) : EReal :=
  x0 (ix2 p q) + x1 (ix2 p q) * (x2 (ix2 p 0) * x2 (ix2 p 0)) + x3 (ix1 q)

/-- The largest of the 40 scores of the block's row `p` (the fold of max from minus infinity). -/
def blockTop3 (x0 x1 : Vec Ideal S5000x40 .f32) (x2 : Vec Ideal S5000x1 .f32) (x3 : Vec Ideal S40 .f32)
    (p : Fin 5000) : EReal :=
  (Finset.univ : Finset (Fin 40)).fold max (Ideal.ofBits .f32 0xFF800000#32) (fun k => blockScore3 x0 x1 x2 x3 p k)

/-- The block's scores as a vector: the body's value before the row maximum is taken. -/
def blockScoreVec3 (x0 x1 : Vec Ideal S5000x40 .f32) (x2 : Vec Ideal S5000x1 .f32) (x3 : Vec Ideal S40 .f32) :
    FVec Ideal S5000x40 .f32 :=
  addf (addf (shapeCast S5000x40 x0 shapeCasts_S5000x40_S5000x40)
      (mulf (shapeCast S5000x40 x1 shapeCasts_S5000x40_S5000x40)
        (broadcastTo S5000x40 (mulf (shapeCast S5000x1 x2 shapeCasts_S5000x1_S5000x1) (shapeCast S5000x1 x2 shapeCasts_S5000x1_S5000x1))
          broadcasts_S5000x1_S5000x40)))
    (broadcastTo S5000x40 (shapeCast S1x40 x3 shapeCasts_S40_S1x40) broadcasts_S1x40_S5000x40)

/-- The score vector read at `(p, q)`: the same-shape casts vanish, the column and the bias row are read where the
    broadcasts put them. -/
theorem blockScoreVec3_apply (x0 x1 : Vec Ideal S5000x40 .f32) (x2 : Vec Ideal S5000x1 .f32) (x3 : Vec Ideal S40 .f32)
    (p : Fin 5000) (q : Fin 40) : blockScoreVec3 x0 x1 x2 x3 (ix2 p q) = blockScore3 x0 x1 x2 x3 p q := by
  unfold blockScoreVec3 blockScore3
  rw [shapeCast_self, shapeCast_self, shapeCast_self, addf_apply, addf_apply, mulf_apply]
  rw [broadcastTo_a1_ab_apply3, broadcastTo_1b_ab_apply, shapeCast_a_1a_apply, mulf_apply]

/-- The body's row-wise log-softmax of a block of scores: subtract each row's maximum, then the logarithm of the row's
    sum of exponentials, both kept as columns and broadcast back along the row. -/
def blockLogSoftmax3 (s : FVec Ideal S5000x40 .f32) : FVec Ideal S5000x40 .f32 :=
  subf
    (subf s (broadcastTo S5000x40 (shapeCast S5000x1
      (multiReduction (F := Ideal) .maximumf [1] S5000 s 0xFF800000#32 reduces_S5000x40_S5000 (.inl rfl) rfl)
      shapeCasts_S5000_S5000x1) broadcasts_S5000x1_S5000x40))
    (broadcastTo S5000x40 (log (shapeCast S5000x1
      (multiReduction (F := Ideal) .add [1] S5000
        (exp (subf s (broadcastTo S5000x40 (shapeCast S5000x1
          (multiReduction (F := Ideal) .maximumf [1] S5000 s 0xFF800000#32 reduces_S5000x40_S5000 (.inl rfl) rfl)
          shapeCasts_S5000_S5000x1) broadcasts_S5000x1_S5000x40)))
        0x00000000#32 reduces_S5000x40_S5000 (.inl rfl) rfl)
      shapeCasts_S5000_S5000x1)) broadcasts_S5000x1_S5000x40)

/-- The body's payload is the log-softmax of the block's scores. -/
theorem payload3_eq (x0 x1 : Vec Ideal S5000x40 .f32) (x2 : Vec Ideal S5000x1 .f32) (x3 : Vec Ideal S40 .f32) :
    k3_pay1 (F := Ideal) x2 x0 x1 x3 = blockLogSoftmax3 (blockScoreVec3 x0 x1 x2 x3) := rfl

/-- The index a reduction over the classes inserts class `k` into, at row `p`, is `(p, k)`. -/
theorem rowLift3 (p : Fin 5000) (k : Fin 40) : reduces_S5000x40_S5000.lift (ix1 p) k = ix2 p k := by
  funext a; apply Fin.ext
  match a with
  | ⟨0, _⟩ => rfl
  | ⟨1, _⟩ => rfl

/-- A row's maximum, kept as a column and broadcast along the row, read at `(p, q)`: the fold of max over the 40
    entries of row `p`. -/
theorem rowMax3_apply (s : FVec Ideal S5000x40 .f32) (hφ : FKind.Formats .f32)
    (hacc : (0xFF800000#32 : BitVec FTy.f32.bits) = FKind.maximumf.neutral .f32 hφ) (p : Fin 5000) (q : Fin 40) :
    broadcastTo S5000x40 (shapeCast S5000x1
        (multiReduction (F := Ideal) .maximumf [1] S5000 s 0xFF800000#32 reduces_S5000x40_S5000 hφ hacc)
        shapeCasts_S5000_S5000x1) broadcasts_S5000x1_S5000x40 (ix2 p q)
      = (Finset.univ : Finset (Fin 40)).fold max (Ideal.ofBits .f32 0xFF800000#32) (fun k => s (ix2 p k)) := by
  rw [broadcastTo_a1_ab_apply3, shapeCast_a_a1_apply3]
  refine (Ideal.multiReduction_maximumf_single s _ reduces_S5000x40_S5000 hφ hacc (ix1 p)).trans ?_
  exact congrArg (fun f => (Finset.univ : Finset (Fin 40)).fold max (Ideal.ofBits .f32 0xFF800000#32) f)
    (funext fun k => congrArg s (rowLift3 p k))

/-- A row's sum, kept as a column, its logarithm broadcast along the row, read at `(p, q)`. -/
theorem logRowSum3_apply (e : FVec Ideal S5000x40 .f32) (hφ : FKind.Formats .f32)
    (hacc : (0x00000000#32 : BitVec FTy.f32.bits) = FKind.add.neutral .f32 hφ) (p : Fin 5000) (q : Fin 40) :
    broadcastTo S5000x40 (log (shapeCast S5000x1
        (multiReduction (F := Ideal) .add [1] S5000 e 0x00000000#32 reduces_S5000x40_S5000 hφ hacc)
        shapeCasts_S5000_S5000x1)) broadcasts_S5000x1_S5000x40 (ix2 p q)
      = Ideal.log (∑ k : Fin 40, e (ix2 p k)) := by
  rw [broadcastTo_a1_ab_apply3]
  show Ideal.log (shapeCast S5000x1 (multiReduction (F := Ideal) .add [1] S5000 e 0x00000000#32 reduces_S5000x40_S5000 hφ hacc)
      shapeCasts_S5000_S5000x1 (ix2 p (0 : Fin 1))) = _
  rw [shapeCast_a_a1_apply3]
  refine congrArg Ideal.log ((Ideal.multiReduction_add_single e _ reduces_S5000x40_S5000 hφ hacc (ix1 p)).trans ?_)
  exact Finset.sum_congr rfl fun k _ => congrArg e (rowLift3 p k)

/-- The log-softmax of a block of scores at row `p`, class `q`: the score less the row's maximum, less the logarithm
    of the row's sum of exponentials of those differences. -/
theorem blockLogSoftmax3_apply (s : FVec Ideal S5000x40 .f32) (p : Fin 5000) (q : Fin 40) :
    blockLogSoftmax3 s (ix2 p q)
      = (s (ix2 p q) - (Finset.univ : Finset (Fin 40)).fold max (Ideal.ofBits .f32 0xFF800000#32) (fun k => s (ix2 p k)))
        - Ideal.log (∑ k : Fin 40, Ideal.exp (s (ix2 p k)
            - (Finset.univ : Finset (Fin 40)).fold max (Ideal.ofBits .f32 0xFF800000#32) (fun k => s (ix2 p k)))) := by
  unfold blockLogSoftmax3
  rw [subf_apply, subf_apply]
  refine congrArg₂ (· - ·) (congrArg₂ (· - ·) rfl (rowMax3_apply s _ _ p q)) ?_
  refine (logRowSum3_apply _ _ _ p q).trans ?_
  refine congrArg Ideal.log (Finset.sum_congr rfl fun k _ => ?_)
  exact congrArg Ideal.exp (congrArg₂ (· - ·) rfl (rowMax3_apply s _ _ p k))

/-- The payload at row `p`, class `q` of the block. -/
theorem payload3_apply (x0 x1 : Vec Ideal S5000x40 .f32) (x2 : Vec Ideal S5000x1 .f32) (x3 : Vec Ideal S40 .f32)
    (p : Fin 5000) (q : Fin 40) :
    k3_pay1 (F := Ideal) x2 x0 x1 x3 (ix2 p q)
      = (blockScore3 x0 x1 x2 x3 p q - blockTop3 x0 x1 x2 x3 p)
        - Ideal.log (∑ k : Fin 40, Ideal.exp (blockScore3 x0 x1 x2 x3 p k - blockTop3 x0 x1 x2 x3 p)) := by
  rw [payload3_eq]
  refine (blockLogSoftmax3_apply _ p q).trans ?_
  simp only [blockScoreVec3_apply]
  rfl

/-! ## From the block's rows to the array's rows -/

/-- When every score of the block's row `p` is the array's score on row `i 0`, and `i` sits at class `q`, the payload's
    value at `(p, q)` is `classScores` at `i`: the maximum and the sum run over the same 40 scores. -/
theorem classScores3_of_row (A0 A1 : FVec Ideal S100000x40 .f32) (A2 : FVec Ideal S100000x1 .f32) (A3 : FVec Ideal S40 .f32)
    (x0 x1 : Vec Ideal S5000x40 .f32) (x2 : Vec Ideal S5000x1 .f32) (x3 : Vec Ideal S40 .f32)
    (p : Fin 5000) (q : Fin 40) (i : S100000x40.Idx) (hq : (i 1).val = q.val)
    (hrow : ∀ k : Fin 40, blockScore3 x0 x1 x2 x3 p k = conv40 A0 A1 A2 A3 (ix2 (i 0) k)) :
    (blockScore3 x0 x1 x2 x3 p q - blockTop3 x0 x1 x2 x3 p)
        - Ideal.log (∑ k : Fin 40, Ideal.exp (blockScore3 x0 x1 x2 x3 p k - blockTop3 x0 x1 x2 x3 p))
      = classScores A0 A1 A2 A3 i := by
  have htop : blockTop3 x0 x1 x2 x3 p = rowTop (conv40 A0 A1 A2 A3) (i 0) :=
    congrArg (fun f => (Finset.univ : Finset (Fin 40)).fold max (Ideal.ofBits .f32 0xFF800000#32) f) (funext hrow)
  have hi : i = ix2 (i 0) q := (eq_ix2 i).trans (congrArg (ix2 (i 0)) (Fin.ext hq))
  have hself : conv40 A0 A1 A2 A3 (ix2 (i 0) q) = conv40 A0 A1 A2 A3 i := congrArg (conv40 A0 A1 A2 A3) hi.symm
  have hsum : (∑ k : Fin 40, Ideal.exp (blockScore3 x0 x1 x2 x3 p k - blockTop3 x0 x1 x2 x3 p))
      = ∑ k : Fin 40, Ideal.exp (conv40 A0 A1 A2 A3 (ix2 (i 0) k) - rowTop (conv40 A0 A1 A2 A3) (i 0)) :=
    Finset.sum_congr rfl fun k _ => by rw [hrow k, htop]
  rw [hsum, htop, hrow q, hself]
  rfl

/-! ## The index maps, decided over the 20 grid points -/

theorem zeroOff2_3 : (![0, 0] : Fin 2 → Nat) = fun _ => 0 := funext fun a => by fin_cases a <;> rfl
theorem zeroOff1_3 : (![0] : Fin 1 → Nat) = fun _ => 0 := funext fun a => by fin_cases a <;> rfl

/-- Every two-dimensional input window moves with the output's row block and stays at class block 0; the bias window
    stays at 0; the output's row block is one of the 20. -/
theorem rowBlocks3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 1) = 0
    ∧ win3_4.index t (1 : Fin 2) = 0 ∧ win3_4.index t (0 : Fin 2) ≤ 19 :=
  (by decide +kernel : ∀ t : Fin grid3.N, _)

/-- Every one of the 20 row blocks is some point's. -/
theorem everyRowBlock3 : ∀ q : Fin 20, ∃ t : Fin cfg3.N, win3_4.index t = ![q.val, 0] :=
  (by decide +kernel : ∀ q : Fin 20, ∃ t : Fin grid3.N, win3_4.index t = ![q.val, 0])

/-- A block row's score is the array row's score when the four entries it is built from are the array's. -/
theorem blockScore3_eq_conv40 (A0 A1 : FVec Ideal S100000x40 .f32) (A2 : FVec Ideal S100000x1 .f32) (A3 : FVec Ideal S40 .f32)
    (x0 x1 : Vec Ideal S5000x40 .f32) (x2 : Vec Ideal S5000x1 .f32) (x3 : Vec Ideal S40 .f32)
    (p : Fin 5000) (k : Fin 40) (r : Fin 100000)
    (h0 : x0 (ix2 p k) = A0 (ix2 r k)) (h1 : x1 (ix2 p k) = A1 (ix2 r k))
    (h2 : x2 (ix2 p (0 : Fin 1)) = A2 (ix2 r (0 : Fin 1))) (h3 : x3 (ix1 k) = A3 (ix1 k)) :
    blockScore3 x0 x1 x2 x3 p k = conv40 A0 A1 A2 A3 (ix2 r k) := by
  unfold blockScore3 conv40
  rw [h0, h1, h2, h3]

/-! ## What a point writes back, and the cover -/

/-- WHAT POINT `t` WRITES BACK is block `t` of `classScores` of the four arrays as the region finds them. -/
theorem writesBack3 (c : Dev nD) (t : Fin cfg3.N) :
    (dat3 (F := Ideal) V c).flushed 4 t = ((cfg3.win 4).blk t).view.read (Elt Ideal)
      (classScores (V c main_v63) (V c main_v50) (V c main_v11) (V c main_arg5)) := by
  show (cfg3.win 4).cut (grid3.coords t) ((dat3 (F := Ideal) V c).after 4 t) = _
  rw [after3_4]
  unfold out3_4
  rw [View.canon_unit_zero zeroOff2_3]
  simp only [View.ld_unit_zero (S := S5000x40) zeroOff2_3, View.ld_unit_zero (S := S5000x1) zeroOff2_3,
    View.ld_unit_zero (S := S40) zeroOff1_3]
  obtain ⟨e00, e01, e10, e11, e20, e21, e30, e41, e40⟩ := rowBlocks3 t
  funext j
  refine ((congrArg (k3_pay1 (F := Ideal) (iblk3 V c 2 t) (iblk3 V c 0 t) (iblk3 V c 1 t) (iblk3 V c 3 t)) (eq_ix2 j)).trans
    (payload3_apply (iblk3 V c 0 t) (iblk3 V c 1 t) (iblk3 V c 2 t) (iblk3 V c 3 t) (j 0) (j 1))).trans ?_
  show _ = classScores (V c main_v63) (V c main_v50) (V c main_v11) (V c main_arg5) (((cfg3.win 4).blk t).view.emb j)
  have hj0 : (j 0).val < 5000 := (j 0).isLt
  have hj1 : (j 1).val < 40 := (j 1).isLt
  refine classScores3_of_row (V c main_v63) (V c main_v50) (V c main_v11) (V c main_arg5)
    (iblk3 V c 0 t) (iblk3 V c 1 t) (iblk3 V c 2 t) (iblk3 V c 3 t) (j 0) (j 1) (((cfg3.win 4).blk t).view.emb j) ?_ ?_
  · show win3_4.index t (1 : Fin 2) * 40 + 1 * (j 1).val = (j 1).val
    omega
  · intro k
    have hk : k.val < 40 := k.isLt
    -- the block indices the row's scores are read at, as indices of the arrays
    have h0 : ((cfg3.win 0).blk t).view.emb (ix2 (j 0) k) = ix2 ((((cfg3.win 4).blk t).view.emb j) 0) k := by
      funext a; apply Fin.ext
      match a with
      | ⟨0, _⟩ => show win3_0.index t (0 : Fin 2) * 5000 + 1 * (j 0).val = win3_4.index t (0 : Fin 2) * 5000 + 1 * (j 0).val; omega
      | ⟨1, _⟩ => show win3_0.index t (1 : Fin 2) * 40 + 1 * k.val = k.val; omega
    have h1 : ((cfg3.win 1).blk t).view.emb (ix2 (j 0) k) = ix2 ((((cfg3.win 4).blk t).view.emb j) 0) k := by
      funext a; apply Fin.ext
      match a with
      | ⟨0, _⟩ => show win3_1.index t (0 : Fin 2) * 5000 + 1 * (j 0).val = win3_4.index t (0 : Fin 2) * 5000 + 1 * (j 0).val; omega
      | ⟨1, _⟩ => show win3_1.index t (1 : Fin 2) * 40 + 1 * k.val = k.val; omega
    have h2 : ((cfg3.win 2).blk t).view.emb (ix2 (j 0) (0 : Fin 1)) = ix2 ((((cfg3.win 4).blk t).view.emb j) 0) (0 : Fin 1) := by
      funext a; apply Fin.ext
      match a with
      | ⟨0, _⟩ => show win3_2.index t (0 : Fin 2) * 5000 + 1 * (j 0).val = win3_4.index t (0 : Fin 2) * 5000 + 1 * (j 0).val; omega
      | ⟨1, _⟩ => show win3_2.index t (1 : Fin 2) * 1 + 1 * 0 = 0; omega
    have h3 : ((cfg3.win 3).blk t).view.emb (ix1 k) = ix1 k := by
      funext a; apply Fin.ext
      match a with
      | ⟨0, _⟩ => show win3_3.index t (0 : Fin 1) * 40 + 1 * k.val = k.val; omega
    exact blockScore3_eq_conv40 (V c main_v63) (V c main_v50) (V c main_v11) (V c main_arg5)
      (iblk3 V c 0 t) (iblk3 V c 1 t) (iblk3 V c 2 t) (iblk3 V c 3 t) (j 0) k _
      (congrArg (V c main_v63) h0) (congrArg (V c main_v50) h1) (congrArg (V c main_v11) h2) (congrArg (V c main_arg5) h3)

/-- An index of the array is in point `t`'s block iff each coordinate is in the block's range on its axis. -/
theorem inBlock3 (t : Fin cfg3.N) (i : S100000x40.Idx) :
    i ∈ ((cfg3.win 4).blk t).view.set ↔ ∀ a : Fin 2, win3_4.index t a * S5000x40.size a ≤ (i a).val
      ∧ (i a).val < win3_4.index t a * S5000x40.size a + S5000x40.size a := by
  show i ∈ ((View.whole main_v64).slice (win3_4.rect t)).set ↔ _
  rw [View.set_slice_whole, Rect.mem_set_unit]
  exact Iff.rfl

/-- Row `r` of the array lies in the block of the point whose row block is `r / 5000`: the 20 blocks cover the array. -/
theorem covered3 (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  obtain ⟨t, ht⟩ := everyRowBlock3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [inBlock3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 40 ≤ (i 1).val ∧ (i 1).val < win3_4.index t (1 : Fin 2) * 40 + 40; omega

/-! # Region 3: the second layer's closing step and the log-softmax

Each of the 20 grid points handles 5000 consecutive nodes: it reads those rows of the summed messages, of the
transformed features and of the inverse-root-degree column, and the whole bias; every row's maximum and sum of
exponentials are taken inside the row, so the block a point writes is the same rows of `classScores`. -/

/-- After region 3 its output array holds `classScores` of the four arrays the region read, as it found them. -/
theorem region3_array (c : Dev nD) :
    (dat3 (F := Ideal) V c).arrAt 4 cfg3.N = classScores (V c main_v63) (V c main_v50) (V c main_v11) (V c main_arg5) := by
  exact (dat3 (F := Ideal) V c).arrAt_eq_of_cover 4
    (classScores (V c main_v63) (V c main_v50) (V c main_v11) (V c main_arg5))
    (fun t _ => writesBack3 V c t) (fun i => covered3 i)

end Cert.KernelIdeal.Val

end
-- ==== Proof.Fold.lean ====
import proofs.«101106_j70970039599642_1_alg».proof.Proof.Gen.KernelIdeal.Frame
import proofs.«101106_j70970039599642_1_alg».proof.Proof.Spec
import proofs.«101106_j70970039599642_1_alg».proof.Proof.HostSide
import proofs.«101106_j70970039599642_1_alg».proof.Proof.Region0
import proofs.«101106_j70970039599642_1_alg».proof.Proof.Region1
import proofs.«101106_j70970039599642_1_alg».proof.Proof.Region2
import proofs.«101106_j70970039599642_1_alg».proof.Proof.Region3
import Idealize.ShloMosaic.Lib.StableHlo.Run

set_option maxRecDepth 16384

noncomputable section

namespace Cert.KernelIdeal.Val

open Cert.KernelIdeal Cert.KernelIdeal.Gen Cert.KernelIdeal.Facts₀
open Idealize.ShloMosaic Idealize.ShloMosaic.TcCoe Idealize.ShloMosaic.StableHlo Idealize.SL.Sem

/-! # The program's buffers, boundary by boundary

@main is: a host stretch (degrees, edge weights), the first product, a host stretch (message passing on 16 features),
the first closing step, the second product, a host stretch (message passing on 40 features), the second closing step.
Below, what each buffer that is still read later holds at each boundary, as a function of the six arguments; the last
line is the result array. -/

variable (m : (ℓ : Loc nD τ sig) → Buf (Elt Ideal) ℓ) (ρ : Dev nD → PrngReg) (c : Dev nD)

/-- The arguments at launch. -/
abbrev argX : FVec Ideal S100000x512 .f32 := m ((c : Thread nD τ).loc main_arg0)
abbrev argE : IVec S2x3200000 32 := m ((c : Thread nD τ).loc main_arg1)
abbrev argW1 : FVec Ideal S512x16 .f32 := m ((c : Thread nD τ).loc main_arg2)
abbrev argB1 : FVec Ideal S16 .f32 := m ((c : Thread nD τ).loc main_arg3)
abbrev argW2 : FVec Ideal S16x40 .f32 := m ((c : Thread nD τ).loc main_arg4)
abbrev argB2 : FVec Ideal S40 .f32 := m ((c : Thread nD τ).loc main_arg5)

/-! ## After the first host stretch -/

theorem at1_src : W1 (F := Ideal) m ρ c (Proc.devRef .tc main_v1) = srcRow (argE m c) := by
  show StableHlo.after hostOps0 (W0 (F := Ideal) m ρ c) (Proc.devRef .tc main_v1) = _
  dsimp only [hostOps0]
  after_results <;> rfl
theorem at1_dst : W1 (F := Ideal) m ρ c (Proc.devRef .tc main_v3) = dstRow (argE m c) := by
  show StableHlo.after hostOps0 (W0 (F := Ideal) m ρ c) (Proc.devRef .tc main_v3) = _
  dsimp only [hostOps0]
  after_results <;> rfl
theorem at1_col : W1 (F := Ideal) m ρ c (Proc.devRef .tc main_v11) = invRootDegreeCol (argE m c) := by
  show StableHlo.after hostOps0 (W0 (F := Ideal) m ρ c) (Proc.devRef .tc main_v11) = _
  dsimp only [hostOps0]
  after_results <;> rfl
set_option maxHeartbeats 4000000 in
theorem at1_wgt : W1 (F := Ideal) m ρ c (Proc.devRef .tc main_v34) = edgeWeight (argE m c) := by
  show StableHlo.after hostOps0 (W0 (F := Ideal) m ρ c) (Proc.devRef .tc main_v34) = _
  dsimp only [hostOps0]
  after_results_simp <;> rfl
theorem at1_x : W1 (F := Ideal) m ρ c (Proc.devRef .tc main_arg0) = argX m c := by
  show StableHlo.after hostOps0 (W0 (F := Ideal) m ρ c) (Proc.devRef .tc main_arg0) = _
  dsimp only [hostOps0]
  after_results <;> rfl
theorem at1_w1 : W1 (F := Ideal) m ρ c (Proc.devRef .tc main_arg2) = argW1 m c := by
  show StableHlo.after hostOps0 (W0 (F := Ideal) m ρ c) (Proc.devRef .tc main_arg2) = _
  dsimp only [hostOps0]
  after_results <;> rfl
theorem at1_b1 : W1 (F := Ideal) m ρ c (Proc.devRef .tc main_arg3) = argB1 m c := by
  show StableHlo.after hostOps0 (W0 (F := Ideal) m ρ c) (Proc.devRef .tc main_arg3) = _
  dsimp only [hostOps0]
  after_results <;> rfl
theorem at1_w2 : W1 (F := Ideal) m ρ c (Proc.devRef .tc main_arg4) = argW2 m c := by
  show StableHlo.after hostOps0 (W0 (F := Ideal) m ρ c) (Proc.devRef .tc main_arg4) = _
  dsimp only [hostOps0]
  after_results <;> rfl
theorem at1_b2 : W1 (F := Ideal) m ρ c (Proc.devRef .tc main_arg5) = argB2 m c := by
  show StableHlo.after hostOps0 (W0 (F := Ideal) m ρ c) (Proc.devRef .tc main_arg5) = _
  dsimp only [hostOps0]
  after_results <;> rfl

/-! ## After the first product -/

theorem at2_h1 : W2 (F := Ideal) m ρ c (Proc.devRef .tc main_v35) = dense512 (argX m c) (argW1 m c) := by
  refine (W2_arr m ρ c 2).trans ((region0_array (V1 m ρ) c).trans ?_)
  show dense512 (W1 m ρ c (Proc.devRef .tc main_arg0)) (W1 m ρ c (Proc.devRef .tc main_arg2)) = _
  rw [at1_x, at1_w1]
theorem at2_src : W2 (F := Ideal) m ρ c (Proc.devRef .tc main_v1) = srcRow (argE m c) :=
  (W2_of_ne m ρ c main_v1 (by decide)).trans (at1_src m ρ c)
theorem at2_dst : W2 (F := Ideal) m ρ c (Proc.devRef .tc main_v3) = dstRow (argE m c) :=
  (W2_of_ne m ρ c main_v3 (by decide)).trans (at1_dst m ρ c)
theorem at2_wgt : W2 (F := Ideal) m ρ c (Proc.devRef .tc main_v34) = edgeWeight (argE m c) :=
  (W2_of_ne m ρ c main_v34 (by decide)).trans (at1_wgt m ρ c)
theorem at2_col : W2 (F := Ideal) m ρ c (Proc.devRef .tc main_v11) = invRootDegreeCol (argE m c) :=
  (W2_of_ne m ρ c main_v11 (by decide)).trans (at1_col m ρ c)
theorem at2_b1 : W2 (F := Ideal) m ρ c (Proc.devRef .tc main_arg3) = argB1 m c :=
  (W2_of_ne m ρ c main_arg3 (by decide)).trans (at1_b1 m ρ c)
theorem at2_w2 : W2 (F := Ideal) m ρ c (Proc.devRef .tc main_arg4) = argW2 m c :=
  (W2_of_ne m ρ c main_arg4 (by decide)).trans (at1_w2 m ρ c)
theorem at2_b2 : W2 (F := Ideal) m ρ c (Proc.devRef .tc main_arg5) = argB2 m c :=
  (W2_of_ne m ρ c main_arg5 (by decide)).trans (at1_b2 m ρ c)

/-! ## After the second host stretch -/

set_option maxHeartbeats 2000000 in
/-- The second host stretch from any contents: message passing of what it finds. -/
theorem stretch1 (U : Valuation τ sig (Elt Ideal)) :
    StableHlo.after hostOps1 U (Proc.devRef .tc main_v48)
      = gatherScatter16 (U (Proc.devRef .tc main_v35)) (U (Proc.devRef .tc main_v1)) (U (Proc.devRef .tc main_v3))
          (U (Proc.devRef .tc main_v34)) := by
  dsimp only [hostOps1]
  after_results_simp <;> rfl
theorem at3_agg : W3 (F := Ideal) m ρ c (Proc.devRef .tc main_v48)
    = passMessages16 (dense512 (argX m c) (argW1 m c)) (argE m c) (edgeWeight (argE m c)) := by
  exact (stretch1 (W2 (F := Ideal) m ρ c)).trans
    (congr (congr (congr (congrArg gatherScatter16 (at2_h1 m ρ c)) (at2_src m ρ c)) (at2_dst m ρ c)) (at2_wgt m ρ c))
theorem at3_h1 : W3 (F := Ideal) m ρ c (Proc.devRef .tc main_v35) = dense512 (argX m c) (argW1 m c) := by
  refine Eq.trans ?_ (at2_h1 m ρ c)
  show StableHlo.after hostOps1 (W2 (F := Ideal) m ρ c) (Proc.devRef .tc main_v35) = _
  dsimp only [hostOps1]
  after_results
theorem at3_col : W3 (F := Ideal) m ρ c (Proc.devRef .tc main_v11) = invRootDegreeCol (argE m c) := by
  refine Eq.trans ?_ (at2_col m ρ c)
  show StableHlo.after hostOps1 (W2 (F := Ideal) m ρ c) (Proc.devRef .tc main_v11) = _
  dsimp only [hostOps1]
  after_results
theorem at3_b1 : W3 (F := Ideal) m ρ c (Proc.devRef .tc main_arg3) = argB1 m c := by
  refine Eq.trans ?_ (at2_b1 m ρ c)
  show StableHlo.after hostOps1 (W2 (F := Ideal) m ρ c) (Proc.devRef .tc main_arg3) = _
  dsimp only [hostOps1]
  after_results
theorem at3_src : W3 (F := Ideal) m ρ c (Proc.devRef .tc main_v1) = srcRow (argE m c) := by
  refine Eq.trans ?_ (at2_src m ρ c)
  show StableHlo.after hostOps1 (W2 (F := Ideal) m ρ c) (Proc.devRef .tc main_v1) = _
  dsimp only [hostOps1]
  after_results
theorem at3_dst : W3 (F := Ideal) m ρ c (Proc.devRef .tc main_v3) = dstRow (argE m c) := by
  refine Eq.trans ?_ (at2_dst m ρ c)
  show StableHlo.after hostOps1 (W2 (F := Ideal) m ρ c) (Proc.devRef .tc main_v3) = _
  dsimp only [hostOps1]
  after_results
theorem at3_wgt : W3 (F := Ideal) m ρ c (Proc.devRef .tc main_v34) = edgeWeight (argE m c) := by
  refine Eq.trans ?_ (at2_wgt m ρ c)
  show StableHlo.after hostOps1 (W2 (F := Ideal) m ρ c) (Proc.devRef .tc main_v34) = _
  dsimp only [hostOps1]
  after_results
theorem at3_w2 : W3 (F := Ideal) m ρ c (Proc.devRef .tc main_arg4) = argW2 m c := by
  refine Eq.trans ?_ (at2_w2 m ρ c)
  show StableHlo.after hostOps1 (W2 (F := Ideal) m ρ c) (Proc.devRef .tc main_arg4) = _
  dsimp only [hostOps1]
  after_results
theorem at3_b2 : W3 (F := Ideal) m ρ c (Proc.devRef .tc main_arg5) = argB2 m c := by
  refine Eq.trans ?_ (at2_b2 m ρ c)
  show StableHlo.after hostOps1 (W2 (F := Ideal) m ρ c) (Proc.devRef .tc main_arg5) = _
  dsimp only [hostOps1]
  after_results

/-! ## After the first closing step -/

theorem at4_l1 : W4 (F := Ideal) m ρ c (Proc.devRef .tc main_v49)
    = layerOne (argX m c) (argE m c) (argW1 m c) (argB1 m c) := by
  refine (W4_arr m ρ c 4).trans ((region1_array (V3 m ρ) c).trans ?_)
  show hidden (W3 m ρ c (Proc.devRef .tc main_v48)) (W3 m ρ c (Proc.devRef .tc main_v35))
      (W3 m ρ c (Proc.devRef .tc main_v11)) (W3 m ρ c (Proc.devRef .tc main_arg3)) = _
  rw [at3_agg, at3_h1, at3_col, at3_b1]
  rfl
theorem at4_col : W4 (F := Ideal) m ρ c (Proc.devRef .tc main_v11) = invRootDegreeCol (argE m c) :=
  ((W4_arr m ρ c 2).trans (((dat1 (V3 m ρ) c).arrAt_in 2 rfl _).trans (A_eq1 (V3 m ρ) c 2))).trans (at3_col m ρ c)
theorem at4_src : W4 (F := Ideal) m ρ c (Proc.devRef .tc main_v1) = srcRow (argE m c) :=
  (W4_of_ne m ρ c main_v1 (by decide)).trans (at3_src m ρ c)
theorem at4_dst : W4 (F := Ideal) m ρ c (Proc.devRef .tc main_v3) = dstRow (argE m c) :=
  (W4_of_ne m ρ c main_v3 (by decide)).trans (at3_dst m ρ c)
theorem at4_wgt : W4 (F := Ideal) m ρ c (Proc.devRef .tc main_v34) = edgeWeight (argE m c) :=
  (W4_of_ne m ρ c main_v34 (by decide)).trans (at3_wgt m ρ c)
theorem at4_w2 : W4 (F := Ideal) m ρ c (Proc.devRef .tc main_arg4) = argW2 m c :=
  (W4_of_ne m ρ c main_arg4 (by decide)).trans (at3_w2 m ρ c)
theorem at4_b2 : W4 (F := Ideal) m ρ c (Proc.devRef .tc main_arg5) = argB2 m c :=
  (W4_of_ne m ρ c main_arg5 (by decide)).trans (at3_b2 m ρ c)

/-! ## After the second product -/

theorem at5_h2 : W5 (F := Ideal) m ρ c (Proc.devRef .tc main_v50)
    = dense16 (layerOne (argX m c) (argE m c) (argW1 m c) (argB1 m c)) (argW2 m c) := by
  refine (W5_arr m ρ c 2).trans ((region2_array (V4 m ρ) c).trans ?_)
  show dense16 (W4 m ρ c (Proc.devRef .tc main_v49)) (W4 m ρ c (Proc.devRef .tc main_arg4)) = _
  rw [at4_l1, at4_w2]
theorem at5_col : W5 (F := Ideal) m ρ c (Proc.devRef .tc main_v11) = invRootDegreeCol (argE m c) :=
  (W5_of_ne m ρ c main_v11 (by decide)).trans (at4_col m ρ c)
theorem at5_src : W5 (F := Ideal) m ρ c (Proc.devRef .tc main_v1) = srcRow (argE m c) :=
  (W5_of_ne m ρ c main_v1 (by decide)).trans (at4_src m ρ c)
theorem at5_dst : W5 (F := Ideal) m ρ c (Proc.devRef .tc main_v3) = dstRow (argE m c) :=
  (W5_of_ne m ρ c main_v3 (by decide)).trans (at4_dst m ρ c)
theorem at5_wgt : W5 (F := Ideal) m ρ c (Proc.devRef .tc main_v34) = edgeWeight (argE m c) :=
  (W5_of_ne m ρ c main_v34 (by decide)).trans (at4_wgt m ρ c)
theorem at5_b2 : W5 (F := Ideal) m ρ c (Proc.devRef .tc main_arg5) = argB2 m c :=
  (W5_of_ne m ρ c main_arg5 (by decide)).trans (at4_b2 m ρ c)

/-! ## After the third host stretch -/

set_option maxHeartbeats 2000000 in
/-- The third host stretch from any contents: message passing of what it finds. -/
theorem stretch3 (U : Valuation τ sig (Elt Ideal)) :
    StableHlo.after hostOps3 U (Proc.devRef .tc main_v63)
      = gatherScatter40 (U (Proc.devRef .tc main_v50)) (U (Proc.devRef .tc main_v1)) (U (Proc.devRef .tc main_v3))
          (U (Proc.devRef .tc main_v34)) := by
  dsimp only [hostOps3]
  after_results_simp <;> rfl
theorem at6_agg : W6 (F := Ideal) m ρ c (Proc.devRef .tc main_v63)
    = passMessages40 (dense16 (layerOne (argX m c) (argE m c) (argW1 m c) (argB1 m c)) (argW2 m c)) (argE m c)
        (edgeWeight (argE m c)) := by
  exact (stretch3 (W5 (F := Ideal) m ρ c)).trans
    (congr (congr (congr (congrArg gatherScatter40 (at5_h2 m ρ c)) (at5_src m ρ c)) (at5_dst m ρ c)) (at5_wgt m ρ c))
theorem at6_h2 : W6 (F := Ideal) m ρ c (Proc.devRef .tc main_v50)
    = dense16 (layerOne (argX m c) (argE m c) (argW1 m c) (argB1 m c)) (argW2 m c) := by
  refine Eq.trans ?_ (at5_h2 m ρ c)
  show StableHlo.after hostOps3 (W5 (F := Ideal) m ρ c) (Proc.devRef .tc main_v50) = _
  dsimp only [hostOps3]
  after_results
theorem at6_col : W6 (F := Ideal) m ρ c (Proc.devRef .tc main_v11) = invRootDegreeCol (argE m c) := by
  refine Eq.trans ?_ (at5_col m ρ c)
  show StableHlo.after hostOps3 (W5 (F := Ideal) m ρ c) (Proc.devRef .tc main_v11) = _
  dsimp only [hostOps3]
  after_results
theorem at6_b2 : W6 (F := Ideal) m ρ c (Proc.devRef .tc main_arg5) = argB2 m c := by
  refine Eq.trans ?_ (at5_b2 m ρ c)
  show StableHlo.after hostOps3 (W5 (F := Ideal) m ρ c) (Proc.devRef .tc main_arg5) = _
  dsimp only [hostOps3]
  after_results

/-! ## The result -/

/-- At the last boundary the result array holds `kernelValue` of the six arguments at launch. -/
theorem result_value : W7 (F := Ideal) m ρ c (Proc.devRef .tc main_v64)
    = kernelValue (argX m c) (argE m c) (argW1 m c) (argB1 m c) (argW2 m c) (argB2 m c) := by
  refine (W7_arr m ρ c 4).trans ((region3_array (V6 m ρ) c).trans ?_)
  show classScores (W6 m ρ c (Proc.devRef .tc main_v63)) (W6 m ρ c (Proc.devRef .tc main_v50))
      (W6 m ρ c (Proc.devRef .tc main_v11)) (W6 m ρ c (Proc.devRef .tc main_arg5)) = _
  rw [at6_agg, at6_h2, at6_col, at6_b2]
  rfl

end Cert.KernelIdeal.Val

end
-- ==== Proof.GatherColumn.lean ====
import proofs.«101106_j70970039599642_1_alg».proof.Proof.Gen.KernelIdeal
import proofs.«101106_j70970039599642_1_alg».proof.Proof.Gen.ReferenceIdeal
import Idealize.ShloMosaic.PureOps.Ideal
import Idealize.ShloMosaic.Lib.Pipeline.Value
import Idealize.ShloMosaic.Lib.ValueIdx

noncomputable section

namespace Cert.KernelIdeal.Val

open Idealize.ShloMosaic Idealize.ShloMosaic.ValueIdx

/-! # Looking a per-node value up along the edges, two ways

One program keeps the per-node value as a column [n, 1] and gathers single elements with a two-component start index
(node, 0); the other keeps it as a vector [n] and gathers with the one-component start index (node).  Both clamp the
node into range, and the second component 0 of the first form is clamped to 0, so they read the same element. -/

/-- The row the column program reads at edge `j`: the first component of its start index, at position (j, 0) of the
    start indices, read signed and clamped into [0, 99999].  Every operand axis is collapsed and none is batching, so
    the batching and offset coordinates are 0. -/
theorem column_row {w : Nat} (j : Cert.KernelIdeal.S3200000.Idx) (idx : IVec Cert.KernelIdeal.S3200000x2 w) :
    (Cert.KernelIdeal.gather_S100000x1_S3200000x2_S3200000_n_01_n_n_01_1_11.operandIdx j idx 0).val
      = min (idx (ix2 (n0 := 3200000) (n1 := 2) (j 0) 0)).toInt.toNat (100000 - 1) := by
  show GatherDims.start _ j idx 0 + GatherDims.batchCoord _ j 0 + GatherDims.offCoord _ j 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈
    Cert.KernelIdeal.gather_S100000x1_S3200000x2_S3200000_n_01_n_n_01_1_11.startIndexMap from by decide)]
  have hsi : Cert.KernelIdeal.gather_S100000x1_S3200000x2_S3200000_n_01_n_n_01_1_11.siIdx j
      ⟨List.idxOf (0 : Fin 2) Cert.KernelIdeal.gather_S100000x1_S3200000x2_S3200000_n_01_n_n_01_1_11.startIndexMap,
        List.idxOf_lt_length_iff.2 (by decide)⟩ = ix2 (n0 := 3200000) (n1 := 2) (j 0) 0 := by
    funext b; refine Fin.ext ?_
    match b with
    | ⟨0, _⟩ => rfl
    | ⟨1, _⟩ => rfl
  rw [hsi]
  rfl

/-- The element the vector program reads at edge `j`: the one component of its start index, at position (j, 0) of the
    start indices, read signed and clamped into [0, 99999]. -/
theorem vector_row {w : Nat} (j : Cert.ReferenceIdeal.S3200000.Idx) (idx : IVec Cert.ReferenceIdeal.S3200000x1 w) :
    (Cert.ReferenceIdeal.gather_S100000_S3200000x1_S3200000_n_0_n_n_0_1_1.operandIdx j idx 0).val
      = min (idx (ix2 (n0 := 3200000) (n1 := 1) (j 0) 0)).toInt.toNat (100000 - 1) := by
  show GatherDims.start _ j idx 0 + GatherDims.batchCoord _ j 0 + GatherDims.offCoord _ j 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 1) ∈
    Cert.ReferenceIdeal.gather_S100000_S3200000x1_S3200000_n_0_n_n_0_1_1.startIndexMap from by decide)]
  have hsi : Cert.ReferenceIdeal.gather_S100000_S3200000x1_S3200000_n_0_n_n_0_1_1.siIdx j
      ⟨List.idxOf (0 : Fin 1) Cert.ReferenceIdeal.gather_S100000_S3200000x1_S3200000_n_0_n_n_0_1_1.startIndexMap,
        List.idxOf_lt_length_iff.2 (by decide)⟩ = ix2 (n0 := 3200000) (n1 := 1) (j 0) 0 := by
    funext b; refine Fin.ext ?_
    match b with
    | ⟨0, _⟩ => rfl
    | ⟨1, _⟩ => rfl
  rw [hsi]
  rfl

/-- A vector over the edges broadcast to a column, read at (j, 0), is the vector at j. -/
theorem column_of_vector_apply {β : Type} (s : Cert.KernelIdeal.S3200000.Idx → β)
    (hb : Cert.KernelIdeal.S3200000.BroadcastsInDim Cert.KernelIdeal.S3200000x1 (![0] : Fin 1 → Fin Cert.KernelIdeal.S3200000x1.rank))
    (j : Cert.KernelIdeal.S3200000.Idx) :
    broadcastInDim Cert.KernelIdeal.S3200000x1 ![0] hb s (ix2 (n0 := 3200000) (n1 := 1) (j 0) 0) = s j := by
  refine broadcastInDim_apply _ hb s _ j ?_
  intro a
  obtain rfl : a = 0 := Subsingleton.elim _ _
  rw [if_neg (by decide)]
  rfl

/-- The column program's second coordinate is 0: it lies below the column's width 1. -/
theorem column_col {w : Nat} (j : Cert.KernelIdeal.S3200000.Idx) (idx : IVec Cert.KernelIdeal.S3200000x2 w) :
    (Cert.KernelIdeal.gather_S100000x1_S3200000x2_S3200000_n_01_n_n_01_1_11.operandIdx j idx 1).val = 0 := by
  have h := (Cert.KernelIdeal.gather_S100000x1_S3200000x2_S3200000_n_01_n_n_01_1_11.operandIdx j idx 1).isLt
  exact Nat.lt_one_iff.mp h

/-- The two-column start indices at (j, 0): position 0 on the concatenated axis falls in the first piece, the
    broadcast of s, which reads s at j. -/
theorem starts_apply (s z : IVec Cert.KernelIdeal.S3200000 32)
    (hb : Cert.KernelIdeal.S3200000.BroadcastsInDim Cert.KernelIdeal.S3200000x1 (![0] : Fin 1 → Fin Cert.KernelIdeal.S3200000x1.rank))
    (hcat : Shape.Concatenates [Cert.KernelIdeal.S3200000x1, Cert.KernelIdeal.S3200000x1] Cert.KernelIdeal.S3200000x2 1)
    (j : Cert.KernelIdeal.S3200000.Idx) :
    concatenate Cert.KernelIdeal.S3200000x2 1
          [⟨Cert.KernelIdeal.S3200000x1, broadcastInDim Cert.KernelIdeal.S3200000x1 ![0] hb s⟩,
           ⟨Cert.KernelIdeal.S3200000x1, broadcastInDim Cert.KernelIdeal.S3200000x1 ![0] hb z⟩] hcat
        (ix2 (n0 := 3200000) (n1 := 2) (j 0) 0) = s j := by
  refine (concatenate_pair_apply_left (1 : Fin Cert.KernelIdeal.S3200000x2.rank) _ _ hcat _ rfl
    (ix2 (n0 := 3200000) (n1 := 1) (j 0) 0) ?_).trans (column_of_vector_apply s hb j)
  intro b
  match b with
  | ⟨0, _⟩ => rfl
  | ⟨1, _⟩ => rfl

/-- Gathering from the column at (s, 0) is gathering from the vector at s. -/
theorem gather_column_eq_gather_vector {α : Type} (d : Cert.KernelIdeal.S100000.Idx → α)
    (s z : IVec Cert.KernelIdeal.S3200000 32) (hz : z = fun _ => 0#32)
    (hcast : Cert.KernelIdeal.S100000.ShapeCasts Cert.KernelIdeal.S100000x1)
    (hb : Cert.KernelIdeal.S3200000.BroadcastsInDim Cert.KernelIdeal.S3200000x1 (![0] : Fin 1 → Fin Cert.KernelIdeal.S3200000x1.rank))
    (hb' : Cert.ReferenceIdeal.S3200000.BroadcastsInDim Cert.ReferenceIdeal.S3200000x1 (![0] : Fin 1 → Fin Cert.ReferenceIdeal.S3200000x1.rank))
    (hcat : Shape.Concatenates [Cert.KernelIdeal.S3200000x1, Cert.KernelIdeal.S3200000x1] Cert.KernelIdeal.S3200000x2 1) :
    Host.gather Cert.KernelIdeal.gather_S100000x1_S3200000x2_S3200000_n_01_n_n_01_1_11
        (shapeCast Cert.KernelIdeal.S100000x1 d hcast)
        (concatenate Cert.KernelIdeal.S3200000x2 1
          [⟨Cert.KernelIdeal.S3200000x1, broadcastInDim Cert.KernelIdeal.S3200000x1 ![0] hb s⟩,
           ⟨Cert.KernelIdeal.S3200000x1, broadcastInDim Cert.KernelIdeal.S3200000x1 ![0] hb z⟩] hcat)
      = Host.gather Cert.ReferenceIdeal.gather_S100000_S3200000x1_S3200000_n_0_n_n_0_1_1 d
        (broadcastInDim Cert.ReferenceIdeal.S3200000x1 ![0] hb' s) := by
  funext j
  unfold Host.gather
  -- the column's element at (row, 0) is the vector's element at row: equal row-major positions
  refine shapeCast_apply d hcast _ _ ?_
  rw [Shape.rowMajor_val_one, Shape.rowMajor_val_two, column_row, column_col, vector_row,
    starts_apply s z hb hcat j, column_of_vector_apply s hb' j]
  simp

end Cert.KernelIdeal.Val

end
-- ==== Proof.RefTerms.lean ====
/-
  The reference program's closing steps, named.

  After message passing the reference adds the node's own row times the square of its inverse-root degree (a
  vector, broadcast along the features) and the bias (broadcast along the nodes); the first layer ends with the
  maximum against zero, the second with the row-wise log-softmax written as: subtract the row's maximum (taken once
  more against minus infinity), exponentiate, sum along the row from zero, take the logarithm, subtract.
-/
import proofs.«101106_j70970039599642_1_alg».proof.Proof.Gen.ReferenceIdeal
import Idealize.ShloMosaic.PureOps.Ideal

noncomputable section

namespace Cert.ReferenceIdeal.Terms

open Idealize.ShloMosaic Cert.ReferenceIdeal Cert.ReferenceIdeal.Facts₀

/-- Summed messages plus the self loop plus the bias, on 16 features. -/
def refConv16 (agg h : FVec Ideal S100000x16 .f32) (d : FVec Ideal S100000 .f32) (b : FVec Ideal S16 .f32) :
    FVec Ideal S100000x16 .f32 :=
  addf (addf agg (mulf h (broadcastInDim S100000x16 ![0, 1] bcast_S100000x1_S100000x16_0_1
      (broadcastInDim S100000x1 ![0] bcast_S100000_S100000x1_0 (mulf d d)))))
    (broadcastInDim S100000x16 ![0, 1] bcast_S1x16_S100000x16_0_1 (broadcastInDim S1x16 ![1] bcast_S16_S1x16_1 b))

/-- The first layer's output: its positive part. -/
def refHidden (agg h : FVec Ideal S100000x16 .f32) (d : FVec Ideal S100000 .f32) (b : FVec Ideal S16 .f32) :
    FVec Ideal S100000x16 .f32 :=
  maximumf (refConv16 agg h d b) (broadcastInDim S100000x16 ![] bcast_S_S100000x16 (constant S_ .f32 0x00000000#32))

/-- Summed messages plus the self loop plus the bias, on 40 classes. -/
def refConv40 (agg h : FVec Ideal S100000x40 .f32) (d : FVec Ideal S100000 .f32) (b : FVec Ideal S40 .f32) :
    FVec Ideal S100000x40 .f32 :=
  addf (addf agg (mulf h (broadcastInDim S100000x40 ![0, 1] bcast_S100000x1_S100000x40_0_1
      (broadcastInDim S100000x1 ![0] bcast_S100000_S100000x1_0 (mulf d d)))))
    (broadcastInDim S100000x40 ![0, 1] bcast_S1x40_S100000x40_0_1 (broadcastInDim S1x40 ![1] bcast_S40_S1x40_1 b))

/-- The scores less their row's maximum. -/
def refShifted (v : FVec Ideal S100000x40 .f32) : FVec Ideal S100000x40 .f32 :=
  subf v (broadcastInDim S100000x40 ![0, 1] bcast_S100000x1_S100000x40_0_1
    (broadcastInDim S100000x1 ![0] bcast_S100000_S100000x1_0
      (maximumf (broadcastInDim S100000 ![] bcast_S_S100000 (constant S_ .f32 0xFF800000#32))
        (Host.reduce FloatOps.maximumf v (constant S_ .f32 0xFF800000#32) reducesTo_S100000x40_S100000_d1 h_S_))))

/-- The row-wise log-softmax as the reference computes it. -/
def refLogSoftmax (v : FVec Ideal S100000x40 .f32) : FVec Ideal S100000x40 .f32 :=
  subf (refShifted v) (broadcastInDim S100000x40 ![0, 1] bcast_S100000x1_S100000x40_0_1
    (Host.log (broadcastInDim S100000x1 ![0] bcast_S100000_S100000x1_0
      (Host.reduceAdd (Host.exp (refShifted v)) (constant S_ .f32 0x00000000#32) reducesTo_S100000x40_S100000_d1 h_S_))))

end Cert.ReferenceIdeal.Terms

end
-- ==== Proof.RefDense.lean ====
import proofs.«101106_j70970039599642_1_alg».proof.Proof.Gen.ReferenceIdeal
import proofs.«101106_j70970039599642_1_alg».proof.Proof.Spec
import proofs.«101106_j70970039599642_1_alg».proof.Proof.RefTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Terms

open Idealize.ShloMosaic Idealize.ShloMosaic.ValueIdx Cert.ReferenceIdeal Cert.ReferenceIdeal.Facts₀
open Cert.KernelIdeal.Val (dense512 dense16 conv16 hidden conv40 rowTop logProbs classScores)

/-! # The reference's two products are the kernel's

Over the extended reals the host's contraction of rows against columns is the plain sum over the contracted axis, so
it is `dense512` (512 features into 16) and `dense16` (16 into 40). -/

/-! ## The operand indices of the first contraction, axis by axis: the kept axis carries the output's coordinate, the
contracted axis the contraction index -/

theorem refProd512_lhs_0 (i : S100000x16.Idx) (q : dot_S100000x512_S512x16_S100000x16_1_0_0_1_n_n.contr.Idx) :
    (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
theorem refProd512_lhs_1 (i : S100000x16.Idx) (q : dot_S100000x512_S512x16_S100000x16_1_0_0_1_n_n.contr.Idx) :
    (dot_S100000x512_S512x16_S100000x16_1_0_0_1_n_n.lhsIdx i q 1).val = (q ⟨0, by decide⟩).val :=
  dot_S100000x512_S512x16_S100000x16_1_0_0_1_n_n.lhsIdx_val_of_single rfl i q
theorem refProd512_rhs_0 (i : S100000x16.Idx) (q : dot_S100000x512_S512x16_S100000x16_1_0_0_1_n_n.contr.Idx) :
    (dot_S100000x512_S512x16_S100000x16_1_0_0_1_n_n.rhsIdx i q 0).val = (q ⟨0, by decide⟩).val :=
  dot_S100000x512_S512x16_S100000x16_1_0_0_1_n_n.rhsIdx_val_of_single rfl i q
theorem refProd512_rhs_1 (i : S100000x16.Idx) (q : dot_S100000x512_S512x16_S100000x16_1_0_0_1_n_n.contr.Idx) :
    (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl

/-- The first product. -/
theorem refDense512_eq (x : FVec Ideal S100000x512 .f32) (w : FVec Ideal S512x16 .f32) :
    Host.dotGeneral dot_S100000x512_S512x16_S100000x16_1_0_0_1_n_n none x w = dense512 x w := by
  funext i
  unfold dense512
  simp only [Host.dotGeneral]
  -- the contraction is the plain sum over its one axis, re-indexed by that axis's coordinate
  rw [Ideal.dotGeneral_apply, ← Equiv.sum_comp (ValueIdx.contrEquiv1 dot_S100000x512_S512x16_S100000x16_1_0_0_1_n_n 512 rfl rfl).symm]
  refine Finset.sum_congr rfl fun k _ => ?_
  have hk := ValueIdx.contrEquiv1_symm_val dot_S100000x512_S512x16_S100000x16_1_0_0_1_n_n 512 rfl rfl k
  -- the left operand is read at (row, k), the right one at (k, column)
  have el : dot_S100000x512_S512x16_S100000x16_1_0_0_1_n_n.lhsIdx i ((ValueIdx.contrEquiv1 dot_S100000x512_S512x16_S100000x16_1_0_0_1_n_n 512 rfl rfl).symm k) = ix2 (i 0) k := funext fun a => Fin.ext (by
    match a with
    | ⟨0, _⟩ => exact refProd512_lhs_0 _ _
    | ⟨1, _⟩ => exact (refProd512_lhs_1 _ _).trans hk)
  have er : dot_S100000x512_S512x16_S100000x16_1_0_0_1_n_n.rhsIdx i ((ValueIdx.contrEquiv1 dot_S100000x512_S512x16_S100000x16_1_0_0_1_n_n 512 rfl rfl).symm k) = ix2 k (i 1) := funext fun a => Fin.ext (by
    match a with
    | ⟨0, _⟩ => exact (refProd512_rhs_0 _ _).trans hk
    | ⟨1, _⟩ => exact refProd512_rhs_1 _ _)
  rw [el, er]
  rfl

/-! ## The operand indices of the second contraction, axis by axis -/

theorem refProd16_lhs_0 (i : S100000x40.Idx) (q : dot_S100000x16_S16x40_S100000x40_1_0_0_1_n_n.contr.Idx) :
    (dot_S100000x16_S16x40_S100000x40_1_0_0_1_n_n.lhsIdx i q 0).val = (i 0).val := by
  unfold DotDims.lhsIdx
  rw [dif_neg (show ¬(0 : Fin S100000x16.rank) ∈ dot_S100000x16_S16x40_S100000x40_1_0_0_1_n_n.lhsBatch by decide), dif_pos (show (0 : Fin S100000x16.rank) ∈ dot_S100000x16_S16x40_S100000x40_1_0_0_1_n_n.lhsNonContracting by decide)]
  rfl
theorem refProd16_lhs_1 (i : S100000x40.Idx) (q : dot_S100000x16_S16x40_S100000x40_1_0_0_1_n_n.contr.Idx) :
    (dot_S100000x16_S16x40_S100000x40_1_0_0_1_n_n.lhsIdx i q 1).val = (q ⟨0, by decide⟩).val :=
  dot_S100000x16_S16x40_S100000x40_1_0_0_1_n_n.lhsIdx_val_of_single rfl i q
theorem refProd16_rhs_0 (i : S100000x40.Idx) (q : dot_S100000x16_S16x40_S100000x40_1_0_0_1_n_n.contr.Idx) :
    (dot_S100000x16_S16x40_S100000x40_1_0_0_1_n_n.rhsIdx i q 0).val = (q ⟨0, by decide⟩).val :=
  dot_S100000x16_S16x40_S100000x40_1_0_0_1_n_n.rhsIdx_val_of_single rfl i q
theorem refProd16_rhs_1 (i : S100000x40.Idx) (q : dot_S100000x16_S16x40_S100000x40_1_0_0_1_n_n.contr.Idx) :
    (dot_S100000x16_S16x40_S100000x40_1_0_0_1_n_n.rhsIdx i q 1).val = (i 1).val := by
  unfold DotDims.rhsIdx
  rw [dif_neg (show ¬(1 : Fin S16x40.rank) ∈ dot_S100000x16_S16x40_S100000x40_1_0_0_1_n_n.rhsBatch by decide), dif_pos (show (1 : Fin S16x40.rank) ∈ dot_S100000x16_S16x40_S100000x40_1_0_0_1_n_n.rhsNonContracting by decide)]
  rfl

/-- The second product. -/
theorem refDense16_eq (x : FVec Ideal S100000x16 .f32) (w : FVec Ideal S16x40 .f32) :
    Host.dotGeneral dot_S100000x16_S16x40_S100000x40_1_0_0_1_n_n none x w = dense16 x w := by
  funext i
  unfold dense16
  simp only [Host.dotGeneral]
  -- the contraction is the plain sum over its one axis, re-indexed by that axis's coordinate
  rw [Ideal.dotGeneral_apply, ← Equiv.sum_comp (ValueIdx.contrEquiv1 dot_S100000x16_S16x40_S100000x40_1_0_0_1_n_n 16 rfl rfl).symm]
  refine Finset.sum_congr rfl fun k _ => ?_
  have hk := ValueIdx.contrEquiv1_symm_val dot_S100000x16_S16x40_S100000x40_1_0_0_1_n_n 16 rfl rfl k
  -- the left operand is read at (row, k), the right one at (k, column)
  have el : dot_S100000x16_S16x40_S100000x40_1_0_0_1_n_n.lhsIdx i ((ValueIdx.contrEquiv1 dot_S100000x16_S16x40_S100000x40_1_0_0_1_n_n 16 rfl rfl).symm k) = ix2 (i 0) k := funext fun a => Fin.ext (by
    match a with
    | ⟨0, _⟩ => exact refProd16_lhs_0 _ _
    | ⟨1, _⟩ => exact (refProd16_lhs_1 _ _).trans hk)
  have er : dot_S100000x16_S16x40_S100000x40_1_0_0_1_n_n.rhsIdx i ((ValueIdx.contrEquiv1 dot_S100000x16_S16x40_S100000x40_1_0_0_1_n_n 16 rfl rfl).symm k) = ix2 k (i 1) := funext fun a => Fin.ext (by
    match a with
    | ⟨0, _⟩ => exact (refProd16_rhs_0 _ _).trans hk
    | ⟨1, _⟩ => exact refProd16_rhs_1 _ _)
  rw [el, er]
  rfl

end Cert.ReferenceIdeal.Terms

end
-- ==== Proof.RefClosing.lean ====
import proofs.«101106_j70970039599642_1_alg».proof.Proof.Gen.ReferenceIdeal
import proofs.«101106_j70970039599642_1_alg».proof.Proof.Spec
import proofs.«101106_j70970039599642_1_alg».proof.Proof.RefTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Terms

open Idealize.ShloMosaic Idealize.ShloMosaic.ValueIdx Cert.ReferenceIdeal Cert.ReferenceIdeal.Facts₀
open Cert.KernelIdeal.Val (dense512 dense16 conv16 hidden conv40 rowTop logProbs classScores)

/-! # The reference's closing steps are the kernel's

The reference broadcasts the squared inverse-root degree (a vector over the nodes) along the features and the bias
along the nodes; read at an entry (n, j) these are the value at n and the bias at j, so the sums agree entry by
entry with `conv16` / `conv40` taken at the same degrees kept as a column. -/

/-! ## Each broadcast of the reference, read at an entry -/

/-- A vector over the nodes set up as a column reads, at (n, 0), the vector's entry n. -/
private theorem vecAsColumn (x : FVec Ideal S100000 .f32)
    (hb : S100000.BroadcastsInDim S100000x1 (![0] : Fin 1 → Fin S100000x1.rank)) (n : Fin 100000) :
    broadcastInDim S100000x1 ![0] hb x (ix2 n 0) = x (ix1 n) :=
  broadcastInDim_apply ![0] hb x (ix2 n 0) (ix1 n) (fun a => by match a with | ⟨0, _⟩ => rfl)

/-- A column over the nodes spread along 16 features reads, in row n, the column's entry n. -/
private theorem columnAlong16 (x : FVec Ideal S100000x1 .f32)
    (hb : S100000x1.BroadcastsInDim S100000x16 (![0, 1] : Fin 2 → Fin S100000x16.rank)) (n : Fin 100000) (j : Fin 16) :
    broadcastInDim S100000x16 ![0, 1] hb x (ix2 n j) = x (ix2 n 0) :=
  broadcastInDim_apply ![0, 1] hb x (ix2 n j) (ix2 n 0) (fun a => by match a with | ⟨0, _⟩ => rfl | ⟨1, _⟩ => rfl)

/-- A column over the nodes spread along 40 classes reads, in row n, the column's entry n. -/
private theorem columnAlong40 (x : FVec Ideal S100000x1 .f32)
    (hb : S100000x1.BroadcastsInDim S100000x40 (![0, 1] : Fin 2 → Fin S100000x40.rank)) (n : Fin 100000) (j : Fin 40) :
    broadcastInDim S100000x40 ![0, 1] hb x (ix2 n j) = x (ix2 n 0) :=
  broadcastInDim_apply ![0, 1] hb x (ix2 n j) (ix2 n 0) (fun a => by match a with | ⟨0, _⟩ => rfl | ⟨1, _⟩ => rfl)

/-- The 16 biases set up as one row read, at (0, j), bias j. -/
private theorem biasAsRow16 (b : FVec Ideal S16 .f32)
    (hb : S16.BroadcastsInDim S1x16 (![1] : Fin 1 → Fin S1x16.rank)) (j : Fin 16) :
    broadcastInDim S1x16 ![1] hb b (ix2 0 j) = b (ix1 j) :=
  broadcastInDim_apply ![1] hb b (ix2 0 j) (ix1 j) (fun a => by match a with | ⟨0, _⟩ => rfl)

/-- The 40 biases set up as one row read, at (0, j), bias j. -/
private theorem biasAsRow40 (b : FVec Ideal S40 .f32)
    (hb : S40.BroadcastsInDim S1x40 (![1] : Fin 1 → Fin S1x40.rank)) (j : Fin 40) :
    broadcastInDim S1x40 ![1] hb b (ix2 0 j) = b (ix1 j) :=
  broadcastInDim_apply ![1] hb b (ix2 0 j) (ix1 j) (fun a => by match a with | ⟨0, _⟩ => rfl)

/-- One row of 16 spread along the nodes reads, in column j, the row's entry j. -/
private theorem rowAlong16 (x : FVec Ideal S1x16 .f32)
    (hb : S1x16.BroadcastsInDim S100000x16 (![0, 1] : Fin 2 → Fin S100000x16.rank)) (n : Fin 100000) (j : Fin 16) :
    broadcastInDim S100000x16 ![0, 1] hb x (ix2 n j) = x (ix2 0 j) :=
  broadcastInDim_apply ![0, 1] hb x (ix2 n j) (ix2 0 j) (fun a => by match a with | ⟨0, _⟩ => rfl | ⟨1, _⟩ => rfl)

/-- One row of 40 spread along the nodes reads, in column j, the row's entry j. -/
private theorem rowAlong40 (x : FVec Ideal S1x40 .f32)
    (hb : S1x40.BroadcastsInDim S100000x40 (![0, 1] : Fin 2 → Fin S100000x40.rank)) (n : Fin 100000) (j : Fin 40) :
    broadcastInDim S100000x40 ![0, 1] hb x (ix2 n j) = x (ix2 0 j) :=
  broadcastInDim_apply ![0, 1] hb x (ix2 n j) (ix2 0 j) (fun a => by match a with | ⟨0, _⟩ => rfl | ⟨1, _⟩ => rfl)

/-- A scalar constant spread over the whole array reads, everywhere, the extended real its word encodes. -/
private theorem scalarEverywhere16 (hb : S_.BroadcastsInDim S100000x16 (![] : Fin 0 → Fin S100000x16.rank))
    (w : BitVec (FTy.bits .f32)) (i : S100000x16.Idx) :
    broadcastInDim S100000x16 ![] hb (constant (F := Ideal) S_ .f32 w) i = Ideal.ofBits .f32 w :=
  broadcastInDim_apply ![] hb (constant (F := Ideal) S_ .f32 w) i ix0 (fun a => a.elim0)

/-- The vector over the nodes recast as a column reads, at (n, 0), the vector's entry n: the two entries have the same
    row-major position. -/
private theorem degreeColumn (d : FVec Ideal S100000 .f32) (hc : S100000.ShapeCasts S100000x1) (n : Fin 100000) :
    shapeCast S100000x1 d hc (ix2 n 0) = d (ix1 n) :=
  shapeCast_apply d hc (ix2 n 0) (ix1 n) (by
    rw [Shape.rowMajor_val_one, Shape.rowMajor_val_two]
    show n.val = n.val * 1 + 0
    omega)

/-! ## The two closing steps -/

/-- The first layer's closing step. -/
theorem refHidden_eq (agg h : FVec Ideal S100000x16 .f32) (d : FVec Ideal S100000 .f32) (b : FVec Ideal S16 .f32)
    (hc : S100000.ShapeCasts S100000x1) :
    refHidden agg h d b = hidden agg h (shapeCast S100000x1 d hc) b := by
  funext i
  obtain ⟨n, j, rfl⟩ : ∃ (n : Fin 100000) (j : Fin 16), i = ix2 n j := ⟨i 0, i 1, eq_ix2 i⟩
  show refHidden agg h d b (ix2 n j)
    = max (agg (ix2 n j) + h (ix2 n j) * (shapeCast S100000x1 d hc (ix2 n 0) * shapeCast S100000x1 d hc (ix2 n 0))
        + b (ix1 j)) (Ideal.ofBits .f32 0x00000000#32)
  unfold refHidden refConv16
  rw [maximumf_apply, addf_apply, addf_apply, mulf_apply, columnAlong16, vecAsColumn, mulf_apply, rowAlong16,
    biasAsRow16, scalarEverywhere16, degreeColumn]

/-- The second layer's sum before the log-softmax. -/
theorem refConv40_eq (agg h : FVec Ideal S100000x40 .f32) (d : FVec Ideal S100000 .f32) (b : FVec Ideal S40 .f32)
    (hc : S100000.ShapeCasts S100000x1) :
    refConv40 agg h d b = conv40 agg h (shapeCast S100000x1 d hc) b := by
  funext i
  obtain ⟨n, j, rfl⟩ : ∃ (n : Fin 100000) (j : Fin 40), i = ix2 n j := ⟨i 0, i 1, eq_ix2 i⟩
  show refConv40 agg h d b (ix2 n j)
    = agg (ix2 n j) + h (ix2 n j) * (shapeCast S100000x1 d hc (ix2 n 0) * shapeCast S100000x1 d hc (ix2 n 0))
        + b (ix1 j)
  unfold refConv40
  rw [addf_apply, addf_apply, mulf_apply, columnAlong40, vecAsColumn, mulf_apply, rowAlong40, biasAsRow40,
    degreeColumn]

end Cert.ReferenceIdeal.Terms

end
-- ==== Proof.RefSoftmax.lean ====
import proofs.«101106_j70970039599642_1_alg».proof.Proof.Gen.ReferenceIdeal
import proofs.«101106_j70970039599642_1_alg».proof.Proof.Spec
import proofs.«101106_j70970039599642_1_alg».proof.Proof.RefTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Terms

open Idealize.ShloMosaic Idealize.ShloMosaic.ValueIdx Cert.ReferenceIdeal Cert.ReferenceIdeal.Facts₀
open Cert.KernelIdeal.Val (dense512 dense16 conv16 hidden conv40 rowTop logProbs classScores)

/-! # The reference's log-softmax is the kernel's

The host's reduction with a maximum body over the 40 classes, from minus infinity, is the fold of max over the row;
taking the maximum with minus infinity once more changes nothing; the host's sum from zero is the row's sum.  So the
reference's row-wise log-softmax is `logProbs`. -/

/-- A node index with the class coordinate `k` put back along axis 1 is the entry (n, k). -/
private theorem softmax_lift_ix2 (h : S100000x40.Reduces [1] S100000) (n : Fin 100000)
    (k : Fin (S100000x40.size 1)) : h.lift (ix1 n) k = ix2 n (⟨k.val, k.isLt⟩ : Fin 40) := by
  funext c; apply Fin.ext
  fin_cases c <;> rfl

/-- Minus infinity is the bottom element: the maximum with it is the other argument. -/
private theorem softmax_max_negInf (y : EReal) : max (Ideal.ofBits .f32 0xFF800000#32) y = y := by
  simp [Ideal.ofBits, Ideal.ieee]

/-- A column broadcast along the 40 classes reads, at (n, q), the column at (n, 0). -/
private theorem softmax_bcastCol_apply (x : FVec Ideal S100000x1 .f32) (n : Fin 100000) (q : Fin 40) :
    broadcastInDim S100000x40 ![0, 1] bcast_S100000x1_S100000x40_0_1 x (ix2 n q) = x (ix2 n (0 : Fin 1)) := by
  refine broadcastInDim_apply ![0, 1] bcast_S100000x1_S100000x40_0_1 x (ix2 n q) (ix2 n (0 : Fin 1)) ?_
  intro a; fin_cases a <;> rfl

/-- A vector over the nodes made a column reads, at (n, 0), the vector at n. -/
private theorem softmax_bcastVec_apply (x : FVec Ideal S100000 .f32) (n : Fin 100000) :
    broadcastInDim S100000x1 ![0] bcast_S100000_S100000x1_0 x (ix2 n (0 : Fin 1)) = x (ix1 n) := by
  refine broadcastInDim_apply ![0] bcast_S100000_S100000x1_0 x (ix2 n (0 : Fin 1)) (ix1 n) ?_
  intro a; fin_cases a; rfl

/-- The host's reduction with a maximum body along the classes, from minus infinity, at node `n`: the fold of max
    over the node's 40 scores. -/
private theorem softmax_hostMax_apply (v : FVec Ideal S100000x40 .f32) (n : Fin 100000) :
    Host.reduce (FloatOps.maximumf (F := Ideal) (φ := .f32)) v (constant S_ .f32 0xFF800000#32)
        reducesTo_S100000x40_S100000_d1 h_S_ (ix1 n) = rowTop v n := by
  have h : S100000x40.Reduces [1] S100000 := by decide
  refine (Host.reduce_eq_fold_single (FloatOps.maximumf (F := Ideal) (φ := .f32)) v _
    reducesTo_S100000x40_S100000_d1 h h_S_ (ix1 n)).trans ?_
  have hf : (v ∘ h.lift (ix1 n)) = fun q : Fin 40 => v (ix2 n q) :=
    funext fun k => congrArg v (softmax_lift_ix2 h n k)
  unfold rowTop
  exact congrArg (fun f => Finset.fold max (Ideal.ofBits .f32 0xFF800000#32) f (Finset.univ : Finset (Fin 40))) hf

/-- The row's maximum as the reference takes it (once more against minus infinity), at node `n`. -/
private theorem softmax_refTop_apply (v : FVec Ideal S100000x40 .f32) (n : Fin 100000) :
    maximumf (broadcastInDim S100000 ![] bcast_S_S100000 (constant S_ .f32 0xFF800000#32))
        (Host.reduce FloatOps.maximumf v (constant S_ .f32 0xFF800000#32) reducesTo_S100000x40_S100000_d1 h_S_)
        (ix1 n) = rowTop v n := by
  rw [maximumf_apply]
  -- the broadcast scalar minus infinity is minus infinity at every node
  have hb : broadcastInDim S100000 ![] bcast_S_S100000 (constant (F := Ideal) S_ .f32 0xFF800000#32) (ix1 n)
      = Ideal.ofBits .f32 0xFF800000#32 := rfl
  rw [hb, softmax_max_negInf]
  exact softmax_hostMax_apply v n

/-- The shifted scores at an entry: the score less its row's maximum. -/
private theorem softmax_refShifted_apply (v : FVec Ideal S100000x40 .f32) (n : Fin 100000) (q : Fin 40) :
    refShifted v (ix2 n q) = v (ix2 n q) - rowTop v n := by
  unfold refShifted
  rw [subf_apply, softmax_bcastCol_apply, softmax_bcastVec_apply, softmax_refTop_apply]

/-- The host's logarithm is pointwise. -/
private theorem softmax_hostLog_apply {s : Shape} (x : FVec Ideal s .f32) (i : s.Idx) :
    Host.log x i = Ideal.log (x i) := rfl

/-- The host's sum from zero of the exponentials of the shifted scores, at node `n`: the row's sum. -/
private theorem softmax_refSum_apply (v : FVec Ideal S100000x40 .f32) (n : Fin 100000) :
    Host.reduceAdd (Host.exp (refShifted v)) (constant S_ .f32 0x00000000#32)
        reducesTo_S100000x40_S100000_d1 h_S_ (ix1 n)
      = ∑ q' : Fin 40, Ideal.exp (v (ix2 n q') - rowTop v n) := by
  have h : S100000x40.Reduces [1] S100000 := by decide
  refine (Ideal.hostReduceAdd_single reducesTo_S100000x40_S100000_d1 h (Host.exp (refShifted v))
    (Ideal.ofBits .f32 0x00000000#32) (ix1 n)).trans ?_
  rw [Ideal.ofBits_zero_f32, zero_add]
  refine Finset.sum_congr rfl fun k _ => ?_
  -- the host's exponential is pointwise
  refine congrArg Ideal.exp ?_
  rw [softmax_lift_ix2 h n k]
  exact softmax_refShifted_apply v n _

/-- The row-wise log-softmax. -/
theorem refLogSoftmax_eq (v : FVec Ideal S100000x40 .f32) : refLogSoftmax v = logProbs v := by
  funext i
  obtain ⟨n, q, rfl⟩ : ∃ (n : Fin 100000) (q : Fin 40), i = ix2 n q := ⟨i 0, i 1, eq_ix2 i⟩
  unfold refLogSoftmax
  rw [subf_apply, softmax_refShifted_apply, softmax_bcastCol_apply, softmax_hostLog_apply, softmax_bcastVec_apply,
    softmax_refSum_apply]
  rfl

end Cert.ReferenceIdeal.Terms

end
-- ==== Proof.RefFold.lean ====
import proofs.«101106_j70970039599642_1_alg».proof.Proof.RefRun
import proofs.«101106_j70970039599642_1_alg».proof.Proof.HostSide
import proofs.«101106_j70970039599642_1_alg».proof.Proof.GatherColumn
import proofs.«101106_j70970039599642_1_alg».proof.Proof.RefTerms
import proofs.«101106_j70970039599642_1_alg».proof.Proof.RefDense
import proofs.«101106_j70970039599642_1_alg».proof.Proof.RefClosing
import proofs.«101106_j70970039599642_1_alg».proof.Proof.RefSoftmax
import Idealize.ShloMosaic.Lib.Pipeline.Frame
import Idealize.ShloMosaic.Lib.StableHlo.Run

set_option maxRecDepth 16384

noncomputable section

namespace Cert.ReferenceIdeal.ReadBack

open Cert.ReferenceIdeal Cert.ReferenceIdeal.Gen Cert.ReferenceIdeal.RunP Cert.ReferenceIdeal.Terms
open Idealize.ShloMosaic Idealize.ShloMosaic.TcCoe Idealize.ShloMosaic.StableHlo Idealize.SL.Sem
open Cert.KernelIdeal.Val (srcRow dstRow wrapNode invRootDegreeOf invRootDegree invRootDegreeCol atNodes edgeWeightOf
  edgeWeight gatherScatter16 gatherScatter40 passMessages16 passMessages40 layerOne kernelValue dense512 dense16 hidden
  classScores conv40 logProbs gather_column_eq_gather_vector)

/-! # The reference program read back, stretch by stretch

The reference is one straight line of 130 host operations.  It is cut into five stretches: through the first message
passing; the first closing step and the second product; the degrees once more and the second message passing; the
second closing step; the log-softmax.  Each stretch is read once from arbitrary contents; then the buffers that
are read later are followed from the launch contents to the result, which is `kernelValue` of the six arguments:
the products by the sums over the contracted axis, the per-node lookups by the column form of the same lookup, the
closing steps entry by entry. -/

/-- The edges' weights as the reference looks them up: in the vector of inverse-root degrees. -/
def refWeightOf (d : FVec Ideal S100000 .f32) (src dst : IVec S3200000 32) : FVec Ideal S3200000 .f32 :=
  mulf (Host.gather gather_S100000_S3200000x1_S3200000_n_0_n_n_0_1_1 d
      (broadcastInDim S3200000x1 ![0] Facts₀.bcast_S3200000_S3200000x1_0 (wrapNode src)))
    (Host.gather gather_S100000_S3200000x1_S3200000_n_0_n_n_0_1_1 d
      (broadcastInDim S3200000x1 ![0] Facts₀.bcast_S3200000_S3200000x1_0 (wrapNode dst)))

/-- Looking the degrees up in the vector or in the column gives the same weights. -/
theorem refWeightOf_eq (d : FVec Ideal S100000 .f32) (src dst : IVec S3200000 32)
    (hc : Cert.KernelIdeal.S100000.ShapeCasts Cert.KernelIdeal.S100000x1) :
    refWeightOf d src dst = edgeWeightOf (shapeCast Cert.KernelIdeal.S100000x1 d hc) src dst := by
  unfold refWeightOf edgeWeightOf atNodes
  exact congr (congrArg mulf (gather_column_eq_gather_vector d (wrapNode src) _ rfl hc _ _ _).symm)
    (gather_column_eq_gather_vector d (wrapNode dst) _ rfl hc _ _ _).symm

/-! ## The four stretches -/

def opsA : List (HloOp τ sig (Elt Ideal)) := (ops (F := Ideal)).take 50
def opsB : List (HloOp τ sig (Elt Ideal)) := ((ops (F := Ideal)).drop 50).take 12
def opsC : List (HloOp τ sig (Elt Ideal)) := ((ops (F := Ideal)).drop 62).take 45
def opsD1 : List (HloOp τ sig (Elt Ideal)) := ((ops (F := Ideal)).drop 107).take 8
def opsD2 : List (HloOp τ sig (Elt Ideal)) := (ops (F := Ideal)).drop 115

theorem ops_split : (ops (F := Ideal)) = opsA ++ (opsB ++ (opsC ++ (opsD1 ++ opsD2))) := by
  unfold opsA opsB opsC opsD1 opsD2
  rfl

variable (U : Valuation τ sig (Elt Ideal))

/-! ### Stretch A from any contents -/

set_option maxHeartbeats 4000000 in
theorem sA_agg : after opsA U (Proc.devRef .tc main_v39)
    = gatherScatter16
        (Host.dotGeneral (F := Ideal) (φ₁ := .f32) (φ₂ := .f32) dot_S100000x512_S512x16_S100000x16_1_0_0_1_n_n none (U (Proc.devRef .tc main_arg0) : FVec Ideal S100000x512 .f32) (U (Proc.devRef .tc main_arg2) : FVec Ideal S512x16 .f32))
        (srcRow (U (Proc.devRef .tc main_arg1))) (dstRow (U (Proc.devRef .tc main_arg1)))
        (refWeightOf (invRootDegree (U (Proc.devRef .tc main_arg1))) (srcRow (U (Proc.devRef .tc main_arg1)))
          (dstRow (U (Proc.devRef .tc main_arg1)))) := by
  dsimp only [opsA, ops, List.take]
  after_results_simp <;> rfl
set_option maxHeartbeats 2000000 in
theorem sA_h1 : after opsA U (Proc.devRef .tc main_v4)
    = Host.dotGeneral (F := Ideal) (φ₁ := .f32) (φ₂ := .f32) dot_S100000x512_S512x16_S100000x16_1_0_0_1_n_n none (U (Proc.devRef .tc main_arg0) : FVec Ideal S100000x512 .f32) (U (Proc.devRef .tc main_arg2) : FVec Ideal S512x16 .f32) := by
  dsimp only [opsA, ops, List.take]
  after_results_simp <;> rfl
set_option maxHeartbeats 2000000 in
theorem sA_dinv : after opsA U (Proc.devRef .tc main_v11) = invRootDegree (U (Proc.devRef .tc main_arg1)) := by
  dsimp only [opsA, ops, List.take]
  after_results_simp <;> rfl
set_option maxHeartbeats 2000000 in
theorem sA_src : after opsA U (Proc.devRef .tc main_v1) = srcRow (U (Proc.devRef .tc main_arg1)) := by
  dsimp only [opsA, ops, List.take]
  after_results_simp <;> rfl
set_option maxHeartbeats 2000000 in
theorem sA_dst : after opsA U (Proc.devRef .tc main_v3) = dstRow (U (Proc.devRef .tc main_arg1)) := by
  dsimp only [opsA, ops, List.take]
  after_results_simp <;> rfl
set_option maxHeartbeats 2000000 in
theorem sA_b1 : after opsA U (Proc.devRef .tc main_arg3) = U (Proc.devRef .tc main_arg3) := by
  dsimp only [opsA, ops, List.take]
  after_results_simp
set_option maxHeartbeats 2000000 in
theorem sA_w2 : after opsA U (Proc.devRef .tc main_arg4) = U (Proc.devRef .tc main_arg4) := by
  dsimp only [opsA, ops, List.take]
  after_results_simp
set_option maxHeartbeats 2000000 in
theorem sA_b2 : after opsA U (Proc.devRef .tc main_arg5) = U (Proc.devRef .tc main_arg5) := by
  dsimp only [opsA, ops, List.take]
  after_results_simp

/-! ### Stretch B from any contents -/

set_option maxHeartbeats 2000000 in
theorem sB_h2 : after opsB U (Proc.devRef .tc main_v49)
    = Host.dotGeneral (F := Ideal) (φ₁ := .f32) (φ₂ := .f32) dot_S100000x16_S16x40_S100000x40_1_0_0_1_n_n none
        (refHidden (U (Proc.devRef .tc main_v39)) (U (Proc.devRef .tc main_v4)) (U (Proc.devRef .tc main_v11)) (U (Proc.devRef .tc main_arg3)))
        (U (Proc.devRef .tc main_arg4) : FVec Ideal S16x40 .f32) := by
  dsimp only [opsB, ops, List.take, List.drop]
  after_results_simp
  simp only [TRef.ofBuf, TRef.toBuf, cast_eq]
  rfl
set_option maxHeartbeats 2000000 in
theorem sB_src : after opsB U (Proc.devRef .tc main_v1) = U (Proc.devRef .tc main_v1) := by
  dsimp only [opsB, ops, List.take, List.drop]
  after_results_simp
set_option maxHeartbeats 2000000 in
theorem sB_dst : after opsB U (Proc.devRef .tc main_v3) = U (Proc.devRef .tc main_v3) := by
  dsimp only [opsB, ops, List.take, List.drop]
  after_results_simp
set_option maxHeartbeats 2000000 in
theorem sB_b2 : after opsB U (Proc.devRef .tc main_arg5) = U (Proc.devRef .tc main_arg5) := by
  dsimp only [opsB, ops, List.take, List.drop]
  after_results_simp

/-! ### Stretch C from any contents -/

set_option maxHeartbeats 4000000 in
theorem sC_agg : after opsC U (Proc.devRef .tc main_v84)
    = gatherScatter40 (U (Proc.devRef .tc main_v49)) (U (Proc.devRef .tc main_v1)) (U (Proc.devRef .tc main_v3))
        (refWeightOf (invRootDegreeOf (U (Proc.devRef .tc main_v3))) (U (Proc.devRef .tc main_v1)) (U (Proc.devRef .tc main_v3))) := by
  dsimp only [opsC, ops, List.take, List.drop]
  after_results_simp <;> rfl
set_option maxHeartbeats 2000000 in
theorem sC_h2 : after opsC U (Proc.devRef .tc main_v49) = U (Proc.devRef .tc main_v49) := by
  dsimp only [opsC, ops, List.take, List.drop]
  after_results_simp
set_option maxHeartbeats 2000000 in
theorem sC_dinv : after opsC U (Proc.devRef .tc main_v56) = invRootDegreeOf (U (Proc.devRef .tc main_v3)) := by
  dsimp only [opsC, ops, List.take, List.drop]
  after_results_simp <;> rfl
set_option maxHeartbeats 2000000 in
theorem sC_b2 : after opsC U (Proc.devRef .tc main_arg5) = U (Proc.devRef .tc main_arg5) := by
  dsimp only [opsC, ops, List.take, List.drop]
  after_results_simp

/-! ### Stretch D from any contents: the second closing step, then the log-softmax

The log-softmax is an inlined function, whose operations read and write through typed references.  Its read-back is
done once for arbitrary row reductions `gmax`, `gsum` in place of the program's maximum and sum along the row, and
then taken at those. -/

set_option maxHeartbeats 2000000 in
theorem sD1 : after opsD1 U (Proc.devRef .tc main_v92)
    = refConv40 (U (Proc.devRef .tc main_v84)) (U (Proc.devRef .tc main_v49)) (U (Proc.devRef .tc main_v56))
        (U (Proc.devRef .tc main_arg5)) := by
  dsimp only [opsD1, ops, List.take, List.drop]
  after_results_simp <;> rfl

/-- The log-softmax over two given row reductions. -/
def softmaxOver (gmax gsum : FVec Ideal S100000x40 .f32 → FVec Ideal S_ .f32 → FVec Ideal S100000 .f32)
    (v : FVec Ideal S100000x40 .f32) : FVec Ideal S100000x40 .f32 :=
  subf
    (subf v (broadcastInDim S100000x40 ![0, 1] Facts₀.bcast_S100000x1_S100000x40_0_1
      (broadcastInDim S100000x1 ![0] Facts₀.bcast_S100000_S100000x1_0
        (maximumf (broadcastInDim S100000 ![] Facts₀.bcast_S_S100000 (constant S_ .f32 0xFF800000#32))
          (gmax v (constant S_ .f32 0xFF800000#32))))))
    (broadcastInDim S100000x40 ![0, 1] Facts₀.bcast_S100000x1_S100000x40_0_1
      (Host.log (broadcastInDim S100000x1 ![0] Facts₀.bcast_S100000_S100000x1_0
        (gsum (Host.exp
          (subf v (broadcastInDim S100000x40 ![0, 1] Facts₀.bcast_S100000x1_S100000x40_0_1
            (broadcastInDim S100000x1 ![0] Facts₀.bcast_S100000_S100000x1_0
              (maximumf (broadcastInDim S100000 ![] Facts₀.bcast_S_S100000 (constant S_ .f32 0xFF800000#32))
                (gmax v (constant S_ .f32 0xFF800000#32)))))))
          (constant S_ .f32 0x00000000#32)))))

set_option maxHeartbeats 2000000 in
theorem softmaxOver_read (gmax gsum : FVec Ideal S100000x40 .f32 → FVec Ideal S_ .f32 → FVec Ideal S100000 .f32) :
    after (softmaxOpsOver (F := Ideal) gmax gsum) U (Proc.devRef .tc main_v93)
      = softmaxOver gmax gsum (U (Proc.devRef .tc main_v92)) := by
  dsimp only [softmaxOpsOver]
  after_results_simp
  simp only [TRef.ofBuf, TRef.toBuf, cast_eq]
  rfl

/-- At the program's own row reductions it is the reference's log-softmax. -/
theorem refLogSoftmax_over (v : FVec Ideal S100000x40 .f32) :
    refLogSoftmax v = softmaxOver (fun x w => Host.reduce FloatOps.maximumf x w Facts₀.reducesTo_S100000x40_S100000_d1 Facts₀.h_S_)
      (fun x w => Host.reduceAdd x w Facts₀.reducesTo_S100000x40_S100000_d1 Facts₀.h_S_) v := rfl

theorem sD2 : after opsD2 U (Proc.devRef .tc main_v93) = refLogSoftmax (U (Proc.devRef .tc main_v92)) := by
  unfold opsD2
  rw [softmaxOpsOver_eq]
  exact (softmaxOver_read U _ _).trans (refLogSoftmax_over _).symm

/-! ## From the launch contents to the result -/

variable (m : (ℓ : Loc nD τ sig) → Buf (Elt Ideal) ℓ) (c : Dev nD)

abbrev rX : FVec Ideal S100000x512 .f32 := m ((c.tc : Thread nD τ).loc main_arg0)
abbrev rE : IVec S2x3200000 32 := m ((c.tc : Thread nD τ).loc main_arg1)
abbrev rW1 : FVec Ideal S512x16 .f32 := m ((c.tc : Thread nD τ).loc main_arg2)
abbrev rB1 : FVec Ideal S16 .f32 := m ((c.tc : Thread nD τ).loc main_arg3)
abbrev rW2 : FVec Ideal S16x40 .f32 := m ((c.tc : Thread nD τ).loc main_arg4)
abbrev rB2 : FVec Ideal S40 .f32 := m ((c.tc : Thread nD τ).loc main_arg5)

/-- The contents after stretch A, B, C from the launch contents. -/
abbrev UA : Valuation τ sig (Elt Ideal) := after opsA (launchContents m c)
abbrev UB : Valuation τ sig (Elt Ideal) := after opsB (UA m c)
abbrev UC : Valuation τ sig (Elt Ideal) := after opsC (UB m c)

theorem a_h1 : UA m c (Proc.devRef .tc main_v4) = dense512 (rX m c) (rW1 m c) :=
  (sA_h1 (launchContents m c)).trans (refDense512_eq (rX m c) (rW1 m c))
theorem a_src : UA m c (Proc.devRef .tc main_v1) = srcRow (rE m c) := sA_src (launchContents m c)
theorem a_dst : UA m c (Proc.devRef .tc main_v3) = dstRow (rE m c) := sA_dst (launchContents m c)
theorem a_dinv : UA m c (Proc.devRef .tc main_v11) = invRootDegree (rE m c) := sA_dinv (launchContents m c)
theorem a_b1 : UA m c (Proc.devRef .tc main_arg3) = rB1 m c := sA_b1 (launchContents m c)
theorem a_w2 : UA m c (Proc.devRef .tc main_arg4) = rW2 m c := sA_w2 (launchContents m c)
theorem a_b2 : UA m c (Proc.devRef .tc main_arg5) = rB2 m c := sA_b2 (launchContents m c)
theorem a_agg : UA m c (Proc.devRef .tc main_v39)
    = passMessages16 (dense512 (rX m c) (rW1 m c)) (rE m c) (edgeWeight (rE m c)) := by
  refine (sA_agg (launchContents m c)).trans ?_
  show gatherScatter16 (Host.dotGeneral (F := Ideal) (φ₁ := .f32) (φ₂ := .f32) dot_S100000x512_S512x16_S100000x16_1_0_0_1_n_n none (rX m c) (rW1 m c))
      (srcRow (rE m c)) (dstRow (rE m c)) (refWeightOf (invRootDegree (rE m c)) (srcRow (rE m c)) (dstRow (rE m c))) = _
  rw [refDense512_eq, refWeightOf_eq _ _ _ Cert.KernelIdeal.Facts₀.shapeCasts_S100000_S100000x1]
  rfl

theorem b_h2 : UB m c (Proc.devRef .tc main_v49)
    = dense16 (layerOne (rX m c) (rE m c) (rW1 m c) (rB1 m c)) (rW2 m c) := by
  refine (sB_h2 (UA m c)).trans ?_
  rw [a_agg, a_h1, a_dinv, a_b1, a_w2, refDense16_eq,
    refHidden_eq _ _ _ _ Cert.KernelIdeal.Facts₀.shapeCasts_S100000_S100000x1]
  rfl
theorem b_src : UB m c (Proc.devRef .tc main_v1) = srcRow (rE m c) := (sB_src (UA m c)).trans (a_src m c)
theorem b_dst : UB m c (Proc.devRef .tc main_v3) = dstRow (rE m c) := (sB_dst (UA m c)).trans (a_dst m c)
theorem b_b2 : UB m c (Proc.devRef .tc main_arg5) = rB2 m c := (sB_b2 (UA m c)).trans (a_b2 m c)

theorem c_h2 : UC m c (Proc.devRef .tc main_v49)
    = dense16 (layerOne (rX m c) (rE m c) (rW1 m c) (rB1 m c)) (rW2 m c) := (sC_h2 (UB m c)).trans (b_h2 m c)
theorem c_dinv : UC m c (Proc.devRef .tc main_v56) = invRootDegree (rE m c) := by
  refine (sC_dinv (UB m c)).trans ?_
  rw [b_dst]
  rfl
theorem c_b2 : UC m c (Proc.devRef .tc main_arg5) = rB2 m c := (sC_b2 (UB m c)).trans (b_b2 m c)
theorem c_agg : UC m c (Proc.devRef .tc main_v84)
    = passMessages40 (dense16 (layerOne (rX m c) (rE m c) (rW1 m c) (rB1 m c)) (rW2 m c)) (rE m c) (edgeWeight (rE m c)) := by
  refine (sC_agg (UB m c)).trans ?_
  rw [b_h2, b_src, b_dst, refWeightOf_eq _ _ _ Cert.KernelIdeal.Facts₀.shapeCasts_S100000_S100000x1]
  rfl

/-- The reference's result buffer, after all 130 operations from the launch contents, holds `kernelValue` of the
    six arguments. -/
theorem result_value : after (ops (F := Ideal)) (launchContents m c) (Proc.devRef .tc main_v93)
    = kernelValue (rX m c) (rE m c) (rW1 m c) (rB1 m c) (rW2 m c) (rB2 m c) := by
  rw [ops_split, StableHlo.after_append, StableHlo.after_append, StableHlo.after_append, StableHlo.after_append]
  refine (sD2 (after opsD1 (UC m c))).trans ?_
  refine (congrArg refLogSoftmax ((sD1 (UC m c)).trans
    (congr (congr (congr (congrArg refConv40 (c_agg m c)) (c_h2 m c)) (c_dinv m c)) (c_b2 m c)))).trans ?_
  rw [refLogSoftmax_eq, refConv40_eq _ _ _ _ Cert.KernelIdeal.Facts₀.shapeCasts_S100000_S100000x1]
  rfl

/-! ## The arguments are never written -/

set_option maxHeartbeats 4000000 in
theorem kept_arg0 : after (ops (F := Ideal)) (launchContents m c) (Proc.devRef .tc main_arg0) = m ((c.tc : Thread nD τ).loc main_arg0) := by
  dsimp only [ops]
  after_results_simp <;> rfl
set_option maxHeartbeats 4000000 in
theorem kept_arg1 : after (ops (F := Ideal)) (launchContents m c) (Proc.devRef .tc main_arg1) = m ((c.tc : Thread nD τ).loc main_arg1) := by
  dsimp only [ops]
  after_results_simp <;> rfl
set_option maxHeartbeats 4000000 in
theorem kept_arg2 : after (ops (F := Ideal)) (launchContents m c) (Proc.devRef .tc main_arg2) = m ((c.tc : Thread nD τ).loc main_arg2) := by
  dsimp only [ops]
  after_results_simp <;> rfl
set_option maxHeartbeats 4000000 in
theorem kept_arg3 : after (ops (F := Ideal)) (launchContents m c) (Proc.devRef .tc main_arg3) = m ((c.tc : Thread nD τ).loc main_arg3) := by
  dsimp only [ops]
  after_results_simp <;> rfl
set_option maxHeartbeats 4000000 in
theorem kept_arg4 : after (ops (F := Ideal)) (launchContents m c) (Proc.devRef .tc main_arg4) = m ((c.tc : Thread nD τ).loc main_arg4) := by
  dsimp only [ops]
  after_results_simp <;> rfl
set_option maxHeartbeats 4000000 in
theorem kept_arg5 : after (ops (F := Ideal)) (launchContents m c) (Proc.devRef .tc main_arg5) = m ((c.tc : Thread nD τ).loc main_arg5) := by
  dsimp only [ops]
  after_results_simp <;> rfl

end Cert.ReferenceIdeal.ReadBack

end
-- ==== Proof.lean ====
/-
  The certificate's five claims.

  Both word-level and idealized kernel programs run without fault and leave their arguments as they were: the generated
  frames.  The reference program is a straight line of host operations; its run leaves every buffer at what the
  operations make of the launch contents, and no operation writes an argument.  The idealization rewrote nothing, so
  `preserves` has nothing to state.  For `algebraic`: the kernel program's result array is `kernelValue` of its six
  arguments (the four regions' arrays, block by block, threaded through the host stretches between them), and the
  reference's result buffer is the same function of its own arguments (its products are the same sums over the
  contracted axis, its per-node lookups in a vector read the same element as the kernel's in a column, its closing
  steps and its log-softmax agree entry by entry); arguments that agree give equal results.
-/
import proofs.«101106_j70970039599642_1_alg».proof.Defs
import proofs.«101106_j70970039599642_1_alg».proof.Proof.Gen.Kernel
import proofs.«101106_j70970039599642_1_alg».proof.Proof.Gen.Kernel.Skeleton
import proofs.«101106_j70970039599642_1_alg».proof.Proof.Gen.Kernel.Launch
import proofs.«101106_j70970039599642_1_alg».proof.Proof.Gen.Kernel.Points
import proofs.«101106_j70970039599642_1_alg».proof.Proof.Gen.Kernel.Frame
import proofs.«101106_j70970039599642_1_alg».proof.Proof.Gen.KernelIdeal
import proofs.«101106_j70970039599642_1_alg».proof.Proof.Gen.KernelIdeal.Skeleton
import proofs.«101106_j70970039599642_1_alg».proof.Proof.Gen.KernelIdeal.Launch
import proofs.«101106_j70970039599642_1_alg».proof.Proof.Gen.KernelIdeal.Points
import proofs.«101106_j70970039599642_1_alg».proof.Proof.Gen.KernelIdeal.Frame
import proofs.«101106_j70970039599642_1_alg».proof.Proof.Gen.ReferenceIdeal
import proofs.«101106_j70970039599642_1_alg».proof.Proof.Gen.Pre_finite_inputs
import proofs.«101106_j70970039599642_1_alg».proof.Proof.KernelRun
import proofs.«101106_j70970039599642_1_alg».proof.Proof.Fold
import proofs.«101106_j70970039599642_1_alg».proof.Proof.RefRun
import proofs.«101106_j70970039599642_1_alg».proof.Proof.RefFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with only the arguments kept in the post. -/
theorem frame_referenceIdeal : Cert.frame_ReferenceIdeal := fun m ρ _ =>
  (θ_run Cert.ReferenceIdeal.defs _ _).mono (fun r h c =>
      ⟨(h c Cert.ReferenceIdeal.main_arg0).trans (Cert.ReferenceIdeal.ReadBack.kept_arg0 m c),
       (h c Cert.ReferenceIdeal.main_arg1).trans (Cert.ReferenceIdeal.ReadBack.kept_arg1 m c),
       (h c Cert.ReferenceIdeal.main_arg2).trans (Cert.ReferenceIdeal.ReadBack.kept_arg2 m c),
       (h c Cert.ReferenceIdeal.main_arg3).trans (Cert.ReferenceIdeal.ReadBack.kept_arg3 m c),
       (h c Cert.ReferenceIdeal.main_arg4).trans (Cert.ReferenceIdeal.ReadBack.kept_arg4 m c),
       (h c Cert.ReferenceIdeal.main_arg5).trans (Cert.ReferenceIdeal.ReadBack.kept_arg5 m c)⟩)
    (Cert.ReferenceIdeal.RunP.run_raw (F := Ideal) m ρ)

/-- Both programs end with `kernelValue` of their arguments in the result, and the arguments agree. -/
theorem algebraic : Cert.algebraic_KernelIdeal_ReferenceIdeal := by
  intro m ρ m' ρ' _ hagree
  refine ⟨fun c => Cert.KernelIdeal.Val.kernelValue (Cert.KernelIdeal.Val.argX m c) (Cert.KernelIdeal.Val.argE m c)
      (Cert.KernelIdeal.Val.argW1 m c) (Cert.KernelIdeal.Val.argB1 m c) (Cert.KernelIdeal.Val.argW2 m c)
      (Cert.KernelIdeal.Val.argB2 m c), ?_, ?_⟩
  · exact (θ_run Cert.KernelIdeal.defs _ _).mono
      (fun r h c => ⟨(h c).1.trans (Cert.KernelIdeal.Val.result_value m ρ c), (h c).2⟩)
      (Cert.KernelIdeal.Named.run_named (F := Ideal) m ρ)
  · refine (θ_run Cert.ReferenceIdeal.defs _ _).mono (fun r h c => ⟨?_,
        (h c Cert.ReferenceIdeal.main_arg0).trans (Cert.ReferenceIdeal.ReadBack.kept_arg0 m' c),
        (h c Cert.ReferenceIdeal.main_arg1).trans (Cert.ReferenceIdeal.ReadBack.kept_arg1 m' c),
        (h c Cert.ReferenceIdeal.main_arg2).trans (Cert.ReferenceIdeal.ReadBack.kept_arg2 m' c),
        (h c Cert.ReferenceIdeal.main_arg3).trans (Cert.ReferenceIdeal.ReadBack.kept_arg3 m' c),
        (h c Cert.ReferenceIdeal.main_arg4).trans (Cert.ReferenceIdeal.ReadBack.kept_arg4 m' c),
        (h c Cert.ReferenceIdeal.main_arg5).trans (Cert.ReferenceIdeal.ReadBack.kept_arg5 m' c)⟩)
      (Cert.ReferenceIdeal.RunP.run_raw (F := Ideal) m' ρ')
    refine ((h c Cert.ReferenceIdeal.main_v93).trans (Cert.ReferenceIdeal.ReadBack.result_value m' c)).trans ?_
    obtain ⟨e0, e1, e2, e3, e4, e5⟩ := hagree c
    have h0 : Cert.ReferenceIdeal.ReadBack.rX m' c = Cert.KernelIdeal.Val.argX m c := e0
    have h1 : Cert.ReferenceIdeal.ReadBack.rE m' c = Cert.KernelIdeal.Val.argE m c := e1
    have h2 : Cert.ReferenceIdeal.ReadBack.rW1 m' c = Cert.KernelIdeal.Val.argW1 m c := e2
    have h3 : Cert.ReferenceIdeal.ReadBack.rB1 m' c = Cert.KernelIdeal.Val.argB1 m c := e3
    have h4 : Cert.ReferenceIdeal.ReadBack.rW2 m' c = Cert.KernelIdeal.Val.argW2 m c := e4
    have h5 : Cert.ReferenceIdeal.ReadBack.rB2 m' c = Cert.KernelIdeal.Val.argB2 m c := e5
    exact congr (congr (congr (congr (congr (congrArg Cert.KernelIdeal.Val.kernelValue h0) h1) h2) h3) h4) h5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
